-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x64 .f32) (main_arg4 : FVec F S64 .f32) (main_arg5 : FVec F S64x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S1376 : Shape := ⟨1, ![1376]⟩
abbrev S3301376 : Shape := ⟨1, ![3301376]⟩
abbrev S100000x64 : Shape := ⟨2, ![100000, 64]⟩
abbrev S5000x128 : Shape := ⟨2, ![5000, 128]⟩
abbrev S5000x64 : Shape := ⟨2, ![5000, 64]⟩
abbrev S3301376x1 : Shape := ⟨2, ![3301376, 1]⟩
abbrev S3301376x64 : Shape := ⟨2, ![3301376, 64]⟩
abbrev S8192x1 : Shape := ⟨2, ![8192, 1]⟩
abbrev S8192x64 : Shape := ⟨2, ![8192, 64]⟩
abbrev S1x64 : Shape := ⟨2, ![1, 64]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 140
  | .vmem => 22
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x64, .f32⟩
  | 4 => ⟨S64, .f32⟩
  | 5 => ⟨S64x1, .f32⟩
  | 6 => ⟨S1, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S100000, .f32⟩
  | 16 => ⟨S3300000, .f32⟩
  | 17 => ⟨S_, .i32⟩
  | 18 => ⟨S1376, .i32⟩
  | 19 => ⟨S3301376, .i32⟩
  | 20 => ⟨S_, .i32⟩
  | 21 => ⟨S1376, .i32⟩
  | 22 => ⟨S3301376, .i32⟩
  | 23 => ⟨S_, .f32⟩
  | 24 => ⟨S1376, .f32⟩
  | 25 => ⟨S3301376, .f32⟩
  | 26 => ⟨S_, .i32⟩
  | 27 => ⟨S3301376, .i32⟩
  | 28 => ⟨S3301376, .i32⟩
  | 29 => ⟨S100000x64, .f32⟩
  | 30 => ⟨S_, .f32⟩
  | 31 => ⟨S100000, .f32⟩
  | 32 => ⟨S3301376x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S3301376, .i32⟩
  | 47 => ⟨S3301376, .i1⟩
  | 48 => ⟨S_, .i32⟩
  | 49 => ⟨S3301376, .i32⟩
  | 50 => ⟨S3301376, .i32⟩
  | 51 => ⟨S3301376, .i32⟩
  | 52 => ⟨S3301376x1, .i32⟩
  | 53 => ⟨S3301376, .f32⟩
  | 54 => ⟨S_, .i32⟩
  | 55 => ⟨S3301376, .i32⟩
  | 56 => ⟨S3301376, .i1⟩
  | 57 => ⟨S_, .i32⟩
  | 58 => ⟨S3301376, .i32⟩
  | 59 => ⟨S3301376, .i32⟩
  | 60 => ⟨S3301376, .i32⟩
  | 61 => ⟨S3301376x1, .i32⟩
  | 62 => ⟨S3301376, .f32⟩
  | 63 => ⟨S3301376, .f32⟩
  | 64 => ⟨S3301376, .f32⟩
  | 65 => ⟨S_, .i32⟩
  | 66 => ⟨S3301376, .i32⟩
  | 67 => ⟨S3301376, .i1⟩
  | 68 => ⟨S_, .i32⟩
  | 69 => ⟨S3301376, .i32⟩
  | 70 => ⟨S3301376, .i32⟩
  | 71 => ⟨S3301376, .i32⟩
  | 72 => ⟨S3301376x1, .i32⟩
  | 73 => ⟨S3301376x64, .f32⟩
  | 74 => ⟨S3301376x1, .f32⟩
  | 75 => ⟨S3301376x64, .f32⟩
  | 76 => ⟨S_, .f32⟩
  | 77 => ⟨S100000x64, .f32⟩
  | 78 => ⟨S3301376x1, .i32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x1, .f32⟩
  | 87 => ⟨S_, .f32⟩
  | 88 => ⟨S100000, .f32⟩
  | 89 => ⟨S3301376x1, .i32⟩
  | 90 => ⟨S100000, .f32⟩
  | 91 => ⟨S_, .f32⟩
  | 92 => ⟨S100000, .f32⟩
  | 93 => ⟨S100000, .i1⟩
  | 94 => ⟨S_, .f32⟩
  | 95 => ⟨S100000, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S3301376, .i32⟩
  | 104 => ⟨S3301376, .i1⟩
  | 105 => ⟨S_, .i32⟩
  | 106 => ⟨S3301376, .i32⟩
  | 107 => ⟨S3301376, .i32⟩
  | 108 => ⟨S3301376, .i32⟩
  | 109 => ⟨S3301376x1, .i32⟩
  | 110 => ⟨S3301376, .f32⟩
  | 111 => ⟨S_, .i32⟩
  | 112 => ⟨S3301376, .i32⟩
  | 113 => ⟨S3301376, .i1⟩
  | 114 => ⟨S_, .i32⟩
  | 115 => ⟨S3301376, .i32⟩
  | 116 => ⟨S3301376, .i32⟩
  | 117 => ⟨S3301376, .i32⟩
  | 118 => ⟨S3301376x1, .i32⟩
  | 119 => ⟨S3301376, .f32⟩
  | 120 => ⟨S3301376, .f32⟩
  | 121 => ⟨S3301376, .f32⟩
  | 122 => ⟨S_, .i32⟩
  | 123 => ⟨S3301376, .i32⟩
  | 124 => ⟨S3301376, .i1⟩
  | 125 => ⟨S_, .i32⟩
  | 126 => ⟨S3301376, .i32⟩
  | 127 => ⟨S3301376, .i32⟩
  | _ => ⟨S100000x128, .f32⟩

abbrev hbmTy0_1 (i : Nat) : BufTy := match i % 128 with
  | 0 => ⟨S3301376, .i32⟩
  | 1 => ⟨S3301376x1, .i32⟩
  | 2 => ⟨S3301376x1, .f32⟩
  | 3 => ⟨S3301376x1, .f32⟩
  | 4 => ⟨S3301376x1, .f32⟩
  | 5 => ⟨S_, .f32⟩
  | 6 => ⟨S100000x1, .f32⟩
  | 7 => ⟨S3301376x1, .i32⟩
  | 8 => ⟨S100000x1, .f32⟩
  | 9 => ⟨S1x1, .f32⟩
  | 10 => ⟨S100000x1, .f32⟩
  | 11 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S8192x1, .f32⟩
  | .local _ .vmem, ⟨6, _⟩ => ⟨S8192x1, .f32⟩
  | .local _ .vmem, ⟨7, _⟩ => ⟨S8192x64, .f32⟩
  | .local _ .vmem, ⟨8, _⟩ => ⟨S8192x64, .f32⟩
  | .local _ .vmem, ⟨9, _⟩ => ⟨S8192x64, .f32⟩
  | .local _ .vmem, ⟨10, _⟩ => ⟨S8192x64, .f32⟩
  | .local _ .vmem, ⟨11, _⟩ => ⟨S5000x64, .f32⟩
  | .local _ .vmem, ⟨12, _⟩ => ⟨S5000x64, .f32⟩
  | .local _ .vmem, ⟨13, _⟩ => ⟨S64x1, .f32⟩
  | .local _ .vmem, ⟨14, _⟩ => ⟨S5000x1, .f32⟩
  | .local _ .vmem, ⟨15, _⟩ => ⟨S5000x1, .f32⟩
  | .local _ .vmem, ⟨16, _⟩ => ⟨S8192x1, .f32⟩
  | .local _ .vmem, ⟨17, _⟩ => ⟨S8192x1, .f32⟩
  | .local _ .vmem, ⟨18, _⟩ => ⟨S8192x1, .f32⟩
  | .local _ .vmem, ⟨19, _⟩ => ⟨S8192x1, .f32⟩
  | .local _ .vmem, ⟨20, _⟩ => ⟨S8192x1, .f32⟩
  | .local _ .vmem, ⟨21, _⟩ => ⟨S8192x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_c_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_c_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call1_cst : Ref sig .tc := ⟨.hbm, 83, rfl⟩
abbrev main_call1_v0 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_v64 : Ref sig .tc := ⟨.hbm, 93, rfl⟩
abbrev main_cst_16 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_17 : Ref sig .tc := ⟨.hbm, 98, rfl⟩
abbrev main_call2_v0 : Ref sig .tc := ⟨.hbm, 99, rfl⟩
abbrev main_call2_v1 : Ref sig .tc := ⟨.hbm, 100, rfl⟩
abbrev main_v68 : Ref sig .tc := ⟨.hbm, 101, rfl⟩
abbrev main_c_18 : Ref sig .tc := ⟨.hbm, 102, rfl⟩
abbrev main_v69 : Ref sig .tc := ⟨.hbm, 103, rfl⟩
abbrev main_v70 : Ref sig .tc := ⟨.hbm, 104, rfl⟩
abbrev main_c_19 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_20 : Ref sig .tc := ⟨.hbm, 111, rfl⟩
abbrev main_v76 : Ref sig .tc := ⟨.hbm, 112, rfl⟩
abbrev main_v77 : Ref sig .tc := ⟨.hbm, 113, rfl⟩
abbrev main_c_21 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_22 : Ref sig .tc := ⟨.hbm, 122, rfl⟩
abbrev main_v85 : Ref sig .tc := ⟨.hbm, 123, rfl⟩
abbrev main_v86 : Ref sig .tc := ⟨.hbm, 124, rfl⟩
abbrev main_c_23 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_24 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![403], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![403], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S1376 : S_.BroadcastsInDim S1376 (![] : Fin 0 → Fin S1376.rank)
  concatenates_S3300000_S1376_S3301376_d0 : Shape.Concatenates [S3300000, S1376] S3301376 0
  bcast_S_S3301376 : S_.BroadcastsInDim S3301376 (![] : Fin 0 → Fin S3301376.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3301376_S3301376x1_0 : S3301376.BroadcastsInDim S3301376x1 (![0] : Fin 1 → Fin S3301376x1.rank)
  shapeCasts_S3301376_S3301376x1 : S3301376.ShapeCasts S3301376x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S5000x128_S128x64_S5000x64_1_0_0_1_n_n_wf : DotDims.WF S5000x128 S128x64 S5000x64 [1] [0] [0] [1] [] []
  scatter_S100000_S3301376x1_S3301376_n_0_0_1_wf : ScatterDims.WF S100000 S3301376x1 S3301376 [] [0] [0] 1
  gather_S100000_S3301376x1_S3301376_n_0_n_n_0_1_1_wf : GatherDims.WF S100000 S3301376x1 S3301376 [] [0] [] [0] [] 1 ![1]
  gather_S100000x64_S3301376x1_S3301376x64_1_0_n_n_0_1_164_wf : GatherDims.WF S100000x64 S3301376x1 S3301376x64 [1] [0] [] [0] [] 1 ![1, 64]
  scatter_S100000x64_S3301376x1_S3301376x64_1_0_0_1_wf : ScatterDims.WF S100000x64 S3301376x1 S3301376x64 [1] [0] [0] 1
  dot_S5000x64_S64x1_S5000x1_1_0_0_1_n_n_wf : DotDims.WF S5000x64 S64x1 S5000x1 [1] [0] [0] [1] [] []
  gather_S100000x1_S3301376x1_S3301376x1_1_0_n_n_0_1_11_wf : GatherDims.WF S100000x1 S3301376x1 S3301376x1 [1] [0] [] [0] [] 1 ![1, 1]
  scatter_S100000x1_S3301376x1_S3301376x1_1_0_0_1_wf : ScatterDims.WF S100000x1 S3301376x1 S3301376x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x1.size a ≤ S3301376x1.size a
  hwx1_0 : ∀ i : grid1.Coords, EltTy.bits .f32 = 32 ∨ (Rect.block (s := S3301376x1) S8192x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S3301376x64.size a
  hwx1_1 : ∀ i : grid1.Coords, EltTy.bits .f32 = 32 ∨ (Rect.block (s := S3301376x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S3301376x64.size a
  hwx1_2 : ∀ i : grid1.Coords, EltTy.bits .f32 = 32 ∨ (Rect.block (s := S3301376x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x1.size a ≤ S3301376x1.size a
  hwx3_0 : ∀ i : grid3.Coords, EltTy.bits .f32 = 32 ∨ (Rect.block (s := S3301376x1) S8192x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x1.size a ≤ S3301376x1.size a
  hwx3_1 : ∀ i : grid3.Coords, EltTy.bits .f32 = 32 ∨ (Rect.block (s := S3301376x1) S8192x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x1.size a ≤ S3301376x1.size a
  hwx3_2 : ∀ i : grid3.Coords, EltTy.bits .f32 = 32 ∨ (Rect.block (s := S3301376x1) S8192x1.size (cc3_transform_2 i) (hinb3_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S3301376x1_S3301376_n_0_0_1 : ScatterDims S100000 S3301376x1 S3301376 where
  updateWindowDims := []
  insertedWindowDims := [0]
  scatterDimsToOperandDims := [0]
  indexVectorDim := 1
  wf := scatter_S100000_S3301376x1_S3301376_n_0_0_1_wf
def gather_S100000_S3301376x1_S3301376_n_0_n_n_0_1_1 : GatherDims S100000 S3301376x1 S3301376 where
  offsetDims := []
  collapsedSliceDims := [0]
  operandBatchingDims := []
  startIndicesBatchingDims := []
  startIndexMap := [0]
  indexVectorDim := 1
  sliceSizes := ![1]
  wf := gather_S100000_S3301376x1_S3301376_n_0_n_n_0_1_1_wf
def gather_S100000x64_S3301376x1_S3301376x64_1_0_n_n_0_1_164 : GatherDims S100000x64 S3301376x1 S3301376x64 where
  offsetDims := [1]
  collapsedSliceDims := [0]
  operandBatchingDims := []
  startIndicesBatchingDims := []
  startIndexMap := [0]
  indexVectorDim := 1
  sliceSizes := ![1, 64]
  wf := gather_S100000x64_S3301376x1_S3301376x64_1_0_n_n_0_1_164_wf
def scatter_S100000x64_S3301376x1_S3301376x64_1_0_0_1 : ScatterDims S100000x64 S3301376x1 S3301376x64 where
  updateWindowDims := [1]
  insertedWindowDims := [0]
  scatterDimsToOperandDims := [0]
  indexVectorDim := 1
  wf := scatter_S100000x64_S3301376x1_S3301376x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000x1_S3301376x1_S3301376x1_1_0_n_n_0_1_11 : GatherDims S100000x1 S3301376x1 S3301376x1 where
  offsetDims := [1]
  collapsedSliceDims := [0]
  operandBatchingDims := []
  startIndicesBatchingDims := []
  startIndexMap := [0]
  indexVectorDim := 1
  sliceSizes := ![1, 1]
  wf := gather_S100000x1_S3301376x1_S3301376x1_1_0_n_n_0_1_11_wf
def scatter_S100000x1_S3301376x1_S3301376x1_1_0_0_1 : ScatterDims S100000x1 S3301376x1 S3301376x1 where
  updateWindowDims := [1]
  insertedWindowDims := [0]
  scatterDimsToOperandDims := [0]
  indexVectorDim := 1
  wf := scatter_S100000x1_S3301376x1_S3301376x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S8192x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v92) S8192x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S8192x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v93) S8192x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S100000x64 : Shape := ⟨2, ![100000, 64]⟩
abbrev S3300000x1 : Shape := ⟨2, ![3300000, 1]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x64, .f32⟩
  | 4 => ⟨S64, .f32⟩
  | 5 => ⟨S64x1, .f32⟩
  | 6 => ⟨S1, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S100000, .f32⟩
  | 16 => ⟨S3300000, .f32⟩
  | 17 => ⟨S100000x64, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S3300000x1, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x64, .f32⟩
  | 64 => ⟨S3300000x64, .f32⟩
  | 65 => ⟨S_, .f32⟩
  | 66 => ⟨S100000x64, .f32⟩
  | 67 => ⟨S3300000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x1, .f32⟩
  | 76 => ⟨S_, .f32⟩
  | 77 => ⟨S100000, .f32⟩
  | 78 => ⟨S3300000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S3300000x1, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x1, .f32⟩
  | 121 => ⟨S3300000x1, .f32⟩
  | 122 => ⟨S_, .f32⟩
  | 123 => ⟨S100000x1, .f32⟩
  | 124 => ⟨S3300000x1, .i32⟩
  | 125 => ⟨S100000x1, .f32⟩
  | 126 => ⟨S1x1, .f32⟩
  | 127 => ⟨S100000x1, .f32⟩
  | _ => ⟨S100000x128, .f32⟩

abbrev hbmTy0_1 (i : Nat) : BufTy := match i % 128 with
  | 0 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_c_19 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_20 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.LibGather.lean ====
/-
  A gather of whole rows, read at an entry.

  jnp's `table[idx]` over a table of `N` rows prints as a `stablehlo.gather` whose start indices are an [n, 1] column of
  row numbers: the table's first axis is collapsed and start-indexed, a second axis (when the table has one) is carried
  whole as the result's offset axis. Entry (p, q) of the result is the table's entry (r, q), where `r` is the start
  index of position `p` read as a signed integer and clamped into [0, N - 1]. The dimension numbers enter only through
  their printed fields, which a caller gives by `rfl`.
-/
import Idealize.ShloMosaic.Lib.ValueIdx
import Idealize.ShloMosaic.Lib.StableHlo.Predicate

noncomputable section

namespace Cert.Lib.Gather

open Idealize.ShloMosaic Idealize.ShloMosaic.ValueIdx

variable {α : Type} {N n C w : Nat}

/-- The row a start index names: the word read signed, clamped into the table. -/
def row (N : Nat) (hN : 0 < N) (v : BitVec w) : Fin N := ⟨min v.toInt.toNat (N - 1), by omega⟩

/-- A take from a rank-1 table at position `p` is the table at that position's clamped start index. -/
theorem take1_apply (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![n, 1]⟩ w) (p : Fin n) :
    Host.gather d x idx (ix1 p) = x (ix1 (row N hN (idx (ix2 p (0 : Fin 1))))) := by
  -- the rank-1 index at a coordinate, and the column's row p, in the two spellings
  have e1 : ∀ {m : Nat} (k : Fin m), (Shape.Idx.ofFin k : (⟨1, ![m]⟩ : Shape).Idx) = ix1 k := fun k => by
    funext a; match a with | ⟨0, _⟩ => rfl
  have e2 : StableHlo.Predicate.ixP p = ix2 p (0 : Fin 1) := by
    funext a; match a with | ⟨0, _⟩ => rfl | ⟨1, _⟩ => rfl
  rw [← e2, ← e1, ← e1]
  exact StableHlo.Predicate.gather_take d hcoll hob hsim hivd x idx p hN

/-- A take of whole rows from an [N, C] table: entry (p, q) is the table's entry (clamped start index of p, q). -/
theorem takeRow_apply (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![n, 1]⟩ w) (p : Fin n) (q : Fin C) :
    Host.gather d x idx (ix2 p q) = x (ix2 (row N hN (idx (ix2 p (0 : Fin 1)))) q) := by
  unfold Host.gather
  congr 1
  funext a
  apply Fin.ext
  have hb : ∀ a : Fin 2, a ∉ d.operandBatchingDims := fun a => by rw [hob]; exact List.not_mem_nil
  -- an element of a one-element list is that element
  have mem_of_eq_singleton : ∀ {l : List (Fin 2)} {c y : Fin 2}, l = [c] → y ∈ l → y = c := fun hl hy => by
    subst hl; exact List.mem_singleton.mp hy
  match a with
  | ⟨0, _⟩ =>
    -- axis 0 is collapsed and start-indexed: the clamped start index, nothing added
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (ix2 p (0 : Fin 1))).toInt.toNat (N - 1)
    rw [GatherDims.batchCoord_eq_zero _ _ _ (hb 0), GatherDims.offCoord_eq_zero _ _ _ hk]
    show d.start (ix2 p q) idx 0 = _
    unfold GatherDims.start
    rw [dif_pos hm]
    show min (idx _).toInt.toNat (N - d.sliceSizes 0) = _
    rw [hsl]
    congr 3
    congr 1
    funext b
    match b with
    | ⟨0, _⟩ =>
      -- the start indices' axis 0 is read at the result's one batch axis, axis 0
      unfold GatherDims.siIdx
      rw [dif_neg (by rw [hivd]; simp)]
      unfold GatherDims.siCoord
      apply Fin.ext
      simp only [Fin.val_cast]
      have e : ∀ X : Fin 2, X = 0 → ((ix2 p q : (⟨2, ![n, C]⟩ : Shape).Idx) X).val = p.val := fun X hX => by
        subst hX; rfl
      exact e _ (mem_of_eq_singleton (show d.batchDims = [0] by
        show (⟨2, ![n, C]⟩ : Shape).kept d.offsetDims = [0]
        rw [hoff]; rfl) (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1 is carried whole: start 0, and the offset coordinate is the result's coordinate on its offset axis 1
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    unfold GatherDims.start
    rw [dif_neg hm]
    unfold GatherDims.offCoord
    rw [dif_pos hk]
    simp only [Nat.add_zero, Nat.zero_add]
    have e : ∀ X : Fin 2, X = 1 → ((ix2 p q : (⟨2, ![n, C]⟩ : Shape).Idx) X).val = q.val := fun X hX => by
      subst hX; rfl
    exact e _ (mem_of_eq_singleton hoff (List.getElem_mem _))

end Cert.Lib.Gather

end
-- ==== Proof.LibScatter.lean ====
/-
  An accumulating scatter of rows at the ideal instance, read at an entry.

  `jax.ops.segment_sum(upd, seg, num_segments = N)` prints as a `stablehlo.scatter` with an `add` body whose scatter
  indices are the [n, 1] column of segment numbers: the operand's first axis is the inserted, scattered one, and a second
  axis (when the updates have one) is the update window. At the ideal instance an entry of the result is the operand's
  entry plus the sum of the updates whose segment number, read as a signed integer, IS that entry's row; an update whose
  segment number is negative or at least `N` lands nowhere and is dropped. The dimension numbers enter only through their
  printed fields, which a caller gives by `rfl`.
-/
import Idealize.ShloMosaic.Lib.ValueIdx
import Idealize.ShloMosaic.Lib.ValueIdxRank1
import Idealize.ShloMosaic.PureOps.Ideal.Laws

noncomputable section

namespace Cert.Lib.Scatter

open Idealize.ShloMosaic Idealize.ShloMosaic.ValueIdx

variable {N n C w : Nat} {φ : FTy}

/-- An update lands at `t` exactly when start plus window coordinate is `t`'s coordinate on every axis. -/
private theorem resultIdx?_eq_some_iff {s si u : Shape} (d : ScatterDims s si u) (j : u.Idx) (idx : IVec si w) (t : s.Idx) :
    d.resultIdx? j idx = some t ↔ ∀ a, d.start j idx a + d.window j a = ((t a).val : Int) := by
  unfold ScatterDims.resultIdx?
  by_cases h : ∀ a, 0 ≤ d.start j idx a + d.window j a ∧ d.start j idx a + d.window j a < s.size a
  · rw [dif_pos h]
    constructor
    · intro e a
      have e' := congrFun (Option.some.inj e) a
      have := (h a).1
      rw [← e']; simp only []; omega
    · intro H
      refine congrArg some (funext fun a => Fin.ext ?_)
      have := H a
      simp only []; omega
  · rw [dif_neg h]
    constructor
    · intro e; cases e
    · intro H; exfalso; apply h; intro a
      have := (t a).isLt
      rw [H a]; omega

/-- Rank 1: the update at `j` lands at row `i` exactly when its segment number, read signed, is `i`: on the one
    operand axis the start is the scatter index and the window coordinate is zero. -/
private theorem segSum1_land (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (j : (⟨1, ![n]⟩ : Shape).Idx) (i : Fin N) :
    d.resultIdx? j idx = some (ix1 i) ↔ (idx (ix2 (j 0) (0 : Fin 1))).toInt = (i.val : Int) := by
  rw [resultIdx?_eq_some_iff]
  have hj : ∀ X : Fin 1, (j X).val = (j 0).val := fun X => by rw [Subsingleton.elim X 0]
  have hst : d.start j idx 0 = (idx (ix2 (j 0) (0 : Fin 1))).toInt := by
    unfold ScatterDims.start
    rw [dif_pos (by rw [hsd]; exact List.mem_singleton.2 rfl)]
    congr 2
    funext b
    unfold ScatterDims.siIdx
    match b with
    | ⟨0, _⟩ =>
      rw [dif_neg (by rw [hivd]; simp)]
      unfold ScatterDims.siCoord
      apply Fin.ext
      simp only [Fin.coe_cast]
      exact hj _
    | ⟨1, _⟩ =>
      rw [dif_pos (by rw [hivd])]
      exact (fun X Y => Subsingleton.elim X Y : ∀ (X Y : Fin 1), X = Y) _ _
  have hw : d.window j 0 = 0 := by
    unfold ScatterDims.window
    rw [dif_neg (by rw [ScatterDims.sKept, hiw]; simp [Shape.kept])]
  constructor
  · intro H
    have := H 0
    rw [hst, hw] at this
    simp only [Nat.cast_zero, add_zero] at this
    exact this
  · intro H a
    have : a = 0 := (fun X Y => Subsingleton.elim X Y : ∀ (X Y : Fin 1), X = Y) _ _
    subst this
    rw [hst, hw, H]; simp only [Nat.cast_zero, add_zero]; rfl

/-- Rank 2: the update at `j` lands at entry (i, q) exactly when its segment number, read signed, is `i` and its
    column is `q`: on the row axis the start is the scatter index and the window coordinate is zero, on the column
    axis the start is zero and the window coordinate is the update's column. -/
private theorem segSum2_land (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (j : (⟨2, ![n, C]⟩ : Shape).Idx) (i : Fin N) (q : Fin C) :
    d.resultIdx? j idx = some (ix2 i q) ↔ (idx (ix2 (j 0) (0 : Fin 1))).toInt = (i.val : Int) ∧ j 1 = q := by
  rw [resultIdx?_eq_some_iff]
  have hU : ∀ X ∈ d.uScatter, X = 0 := by
    rw [ScatterDims.uScatter, huw]
    intro X hX
    match X with
    | ⟨0, _⟩ => rfl
    | ⟨1, _⟩ => simp [Shape.kept] at hX
  have hW : ∀ X ∈ d.updateWindowDims, X = 1 := by
    rw [huw]; intro X hX; exact List.mem_singleton.1 hX
  have hst0 : d.start j idx 0 = (idx (ix2 (j 0) (0 : Fin 1))).toInt := by
    unfold ScatterDims.start
    rw [dif_pos (by rw [hsd]; exact List.mem_singleton.2 rfl)]
    congr 2
    funext b
    unfold ScatterDims.siIdx
    match b with
    | ⟨0, _⟩ =>
      rw [dif_neg (by rw [hivd]; simp)]
      unfold ScatterDims.siCoord
      apply Fin.ext
      simp only [Fin.coe_cast]
      rw [hU _ (List.getElem_mem _)]
    | ⟨1, _⟩ =>
      rw [dif_pos (by rw [hivd])]
      exact (fun X Y => Subsingleton.elim X Y : ∀ (X Y : Fin 1), X = Y) _ _
  have hst1 : d.start j idx 1 = 0 := by
    unfold ScatterDims.start
    rw [dif_neg (by rw [hsd]; simp)]
  have hw0 : d.window j 0 = 0 := by
    unfold ScatterDims.window
    rw [dif_neg (by rw [ScatterDims.sKept, hiw]; simp [Shape.kept])]
  have hw1 : d.window j 1 = (j 1).val := by
    unfold ScatterDims.window
    rw [dif_pos (by rw [ScatterDims.sKept, hiw]; simp [Shape.kept])]
    rw [hW _ (List.getElem_mem _)]
  constructor
  · intro H
    have h0 := H 0
    have h1 := H 1
    rw [hst0, hw0] at h0
    rw [hst1, hw1] at h1
    simp only [Nat.cast_zero, add_zero, zero_add] at h0 h1
    exact ⟨h0, Fin.ext (by exact_mod_cast h1)⟩
  · rintro ⟨H0, H1⟩ a
    match a with
    | ⟨0, _⟩ =>
      show d.start j idx 0 + d.window j 0 = _
      rw [hst0, hw0, H0]; simp only [Nat.cast_zero, add_zero]
    | ⟨1, _⟩ =>
      show d.start j idx 1 + d.window j 1 = _
      rw [hst1, hw1, H1]; simp only [zero_add]

/-- Segment sums of a vector: entry `i` is the operand's plus the updates whose segment number is `i`. -/
theorem segSum1_apply (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (i : Fin N) :
    Host.scatterAdd (F := Ideal) d x idx upd (ix1 i)
      = x (ix1 i) + ∑ p : Fin n, if (idx (ix2 p (0 : Fin 1))).toInt = (i.val : Int) then upd (ix1 p) else 0 := by
  unfold Host.scatterAdd
  rw [Ideal.hostScatterAdd_def]
  unfold Ideal.hostScatterAdd
  congr 1
  rw [Finset.sum_filter, ← Equiv.sum_comp (idxEquiv1 (n := n)).symm]
  exact Finset.sum_congr rfl fun p _ => if_congr (segSum1_land d huw hiw hsd hivd idx (ix1 p) i) rfl rfl

/-- Segment sums of the rows of an [n, C] array: entry (i, q) is the operand's plus column `q` of the rows whose
    segment number is `i`. -/
theorem segSum2_apply (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ) (i : Fin N) (q : Fin C) :
    Host.scatterAdd (F := Ideal) d x idx upd (ix2 i q)
      = x (ix2 i q) + ∑ p : Fin n, if (idx (ix2 p (0 : Fin 1))).toInt = (i.val : Int) then upd (ix2 p q) else 0 := by
  unfold Host.scatterAdd
  rw [Ideal.hostScatterAdd_def]
  unfold Ideal.hostScatterAdd
  congr 1
  rw [Finset.sum_filter, sum_idx2]
  refine Finset.sum_congr rfl fun p _ => ?_
  have hl : ∀ b : Fin C, d.resultIdx? (ix2 p b) idx = some (ix2 i q)
      ↔ ((idx (ix2 p (0 : Fin 1))).toInt = (i.val : Int) ∧ b = q) :=
    fun b => segSum2_land d huw hiw hsd hivd idx (ix2 p b) i q
  rw [Finset.sum_congr rfl fun b _ => if_congr (hl b) rfl rfl]
  by_cases hA : (idx (ix2 p (0 : Fin 1))).toInt = (i.val : Int)
  · simp only [hA, true_and, if_true, Finset.sum_ite_eq', Finset.mem_univ]
  · simp only [hA, false_and, if_false, Finset.sum_const_zero]

end Cert.Lib.Scatter

end
-- ==== Proof.LibPad.lean ====
/-
  Arrays that continue a shorter array: the first `n` rows of an array of `n' ≥ n` rows are a given array of `n` rows.

  A program that pads its edge lists to a multiple of a tile size computes, row by row, what the unpadded program
  computes on the first `n` rows: every operation that acts row by row (an arithmetic operation, a comparison, a select,
  a splat, laying a vector out as a column, a take from a table at the rows' start indices) carries the relation from
  its operands to its result. A segment sum forgets the extra rows altogether once their segment numbers are out of
  range: an update that lands nowhere adds nothing.
-/
import Idealize.ShloMosaic.Lib.ValueIdx
import Idealize.ShloMosaic.Lib.Pipeline.Value
import Idealize.ShloMosaic.PureOps.Ideal.Laws
import proofs.«119266_j67216238182417_1_alg».proof.Proof.LibGather
import proofs.«119266_j67216238182417_1_alg».proof.Proof.LibScatter

noncomputable section

namespace Cert.Lib.Pad

open Idealize.ShloMosaic Idealize.ShloMosaic.ValueIdx

variable {α : Type} {n n' k C N w : Nat} {φ : FTy}

/-- A vector of length `n'` continues one of length `n ≤ n'`: their first `n` entries are equal. -/
def Ext1 (h : n ≤ n') (a : (⟨1, ![n]⟩ : Shape).Idx → α) (a' : (⟨1, ![n']⟩ : Shape).Idx → α) : Prop :=
  ∀ p : Fin n, a' (ix1 (Fin.castLE h p)) = a (ix1 p)

/-- An array of `n'` rows continues one of `n ≤ n'` rows of the same width: their first `n` rows are equal. -/
def Ext2 (h : n ≤ n') (a : (⟨2, ![n, C]⟩ : Shape).Idx → α) (a' : (⟨2, ![n', C]⟩ : Shape).Idx → α) : Prop :=
  ∀ (p : Fin n) (q : Fin C), a' (ix2 (Fin.castLE h p) q) = a (ix2 p q)

/-! ## Operations that act entry by entry -/

section Pointwise
variable (h : n ≤ n')

theorem ext1_mulf {a b : FVec Ideal ⟨1, ![n]⟩ φ} {a' b' : FVec Ideal ⟨1, ![n']⟩ φ} (ha : Ext1 h a a') (hb : Ext1 h b b') :
    Ext1 h (mulf a b) (mulf a' b') := fun p => by
  show a' _ * b' _ = a _ * b _
  rw [ha p, hb p]

theorem ext2_mulf {a b : FVec Ideal ⟨2, ![n, C]⟩ φ} {a' b' : FVec Ideal ⟨2, ![n', C]⟩ φ} (ha : Ext2 h a a') (hb : Ext2 h b b') :
    Ext2 h (mulf a b) (mulf a' b') := fun p q => by
  show a' _ * b' _ = a _ * b _
  rw [ha p q, hb p q]

theorem ext1_addi {a b : IVec ⟨1, ![n]⟩ w} {a' b' : IVec ⟨1, ![n']⟩ w} (ha : Ext1 h a a') (hb : Ext1 h b b') :
    Ext1 h (addi a b) (addi a' b') := fun p => by
  show IntOp.addi (a' _) (b' _) = IntOp.addi (a _) (b _)
  rw [ha p, hb p]

theorem ext1_cmpi (pr : CmpIPredicate) {a b : IVec ⟨1, ![n]⟩ w} {a' b' : IVec ⟨1, ![n']⟩ w} (ha : Ext1 h a a') (hb : Ext1 h b b') :
    Ext1 h (cmpi pr a b) (cmpi pr a' b') := fun p => by
  show IntOp.cmpi pr (a' _) (b' _) = IntOp.cmpi pr (a _) (b _)
  rw [ha p, hb p]

theorem ext1_select {c : IVec ⟨1, ![n]⟩ 1} {c' : IVec ⟨1, ![n']⟩ 1} {a b : (⟨1, ![n]⟩ : Shape).Idx → α}
    {a' b' : (⟨1, ![n']⟩ : Shape).Idx → α} (hc : Ext1 h c c') (ha : Ext1 h a a') (hb : Ext1 h b b') :
    Ext1 h (select c a b) (select c' a' b') := fun p => by
  show Scalar.select (c' _) (a' _) (b' _) = Scalar.select (c _) (a _) (b _)
  rw [hc p, ha p, hb p]

end Pointwise

/-! ## Layout -/

/-- A splat of one scalar to either length. -/
theorem ext1_splat (h : n ≤ n') (hb : (⟨0, ![]⟩ : Shape).BroadcastsInDim ⟨1, ![n]⟩ ![])
    (hb' : (⟨0, ![]⟩ : Shape).BroadcastsInDim ⟨1, ![n']⟩ ![]) (x : (⟨0, ![]⟩ : Shape).Idx → α) :
    Ext1 h (broadcastInDim ⟨1, ![n]⟩ ![] hb x) (broadcastInDim ⟨1, ![n']⟩ ![] hb' x) := fun p => by
  rw [broadcastInDim_apply ![] hb' x _ ix0 (fun a => a.elim0), broadcastInDim_apply ![] hb x _ ix0 (fun a => a.elim0)]

/-- A vector laid out as a column. -/
theorem ext2_col (h : n ≤ n') (hb : (⟨1, ![n]⟩ : Shape).BroadcastsInDim ⟨2, ![n, 1]⟩ ![0])
    (hb' : (⟨1, ![n']⟩ : Shape).BroadcastsInDim ⟨2, ![n', 1]⟩ ![0])
    {a : (⟨1, ![n]⟩ : Shape).Idx → α} {a' : (⟨1, ![n']⟩ : Shape).Idx → α} (ha : Ext1 h a a') :
    Ext2 h (broadcastInDim ⟨2, ![n, 1]⟩ ![0] hb a) (broadcastInDim ⟨2, ![n', 1]⟩ ![0] hb' a') := fun p q => by
  rw [broadcastInDim_apply ![0] hb' a' _ (ix1 (Fin.castLE h p)) (fun a => by
        match a with
        | ⟨0, _⟩ =>
          show p.val = if n' = 1 then 0 else p.val
          have := p.isLt; split <;> omega),
      broadcastInDim_apply ![0] hb a _ (ix1 p) (fun a => by
        match a with
        | ⟨0, _⟩ =>
          show p.val = if n = 1 then 0 else p.val
          have := p.isLt; split <;> omega)]
  exact ha p

/-- The longer vector RESHAPED to a column continues the shorter one laid out as a column. -/
theorem ext2_col_reshape (h : n ≤ n') (hb : (⟨1, ![n]⟩ : Shape).BroadcastsInDim ⟨2, ![n, 1]⟩ ![0])
    (hs : (⟨1, ![n']⟩ : Shape).ShapeCasts ⟨2, ![n', 1]⟩)
    {a : (⟨1, ![n]⟩ : Shape).Idx → α} {a' : (⟨1, ![n']⟩ : Shape).Idx → α} (ha : Ext1 h a a') :
    Ext2 h (broadcastInDim ⟨2, ![n, 1]⟩ ![0] hb a) (shapeCast ⟨2, ![n', 1]⟩ a' hs) := fun p q => by
  rw [shapeCast_apply a' hs _ (ix1 (Fin.castLE h p)) (by
        rw [Shape.rowMajor_val_two, Shape.rowMajor_val_one]
        have hq : q.val = 0 := by have := q.isLt; omega
        show p.val = p.val * 1 + q.val
        omega),
      broadcastInDim_apply ![0] hb a _ (ix1 p) (fun a => by
        match a with
        | ⟨0, _⟩ =>
          show p.val = if n = 1 then 0 else p.val
          have := p.isLt; split <;> omega)]
  exact ha p

/-- Padding a vector at its end continues it. -/
theorem ext1_concat (h : n ≤ n') (hc : Shape.Concatenates [(⟨1, ![n]⟩ : Shape), ⟨1, ![k]⟩] ⟨1, ![n']⟩ 0)
    (a : (⟨1, ![n]⟩ : Shape).Idx → α) (b : (⟨1, ![k]⟩ : Shape).Idx → α) :
    Ext1 h a (concatenate ⟨1, ![n']⟩ 0 [⟨⟨1, ![n]⟩, a⟩, ⟨⟨1, ![k]⟩, b⟩] hc) := fun p =>
  concatenate_pair_apply_left 0 a b hc _ rfl (ix1 p) (fun b => by match b with | ⟨0, _⟩ => rfl)

/-- Past the shorter vector's end the padded vector holds the padding. -/
theorem concat_tail (hc : Shape.Concatenates [(⟨1, ![n]⟩ : Shape), ⟨1, ![k]⟩] ⟨1, ![n']⟩ 0)
    (a : (⟨1, ![n]⟩ : Shape).Idx → α) (b : (⟨1, ![k]⟩ : Shape).Idx → α) (p : Fin n') (hp : n ≤ p.val) (hk : p.val - n < k) :
    concatenate ⟨1, ![n']⟩ 0 [⟨⟨1, ![n]⟩, a⟩, ⟨⟨1, ![k]⟩, b⟩] hc (ix1 p) = b (ix1 ⟨p.val - n, hk⟩) :=
  concatenate_pair_apply_right 0 a b hc _ rfl rfl (ix1 ⟨p.val - n, hk⟩)
    (fun b hb => by match b with | ⟨0, _⟩ => exact absurd rfl hb)
    (by show (p.val - n) + n = p.val; omega)

/-! ## Takes from a table -/

/-- A take from a rank-1 table continues when each of the first `n` positions names the same row in both. -/
theorem ext1_take1 (h : n ≤ n') (d : GatherDims ⟨1, ![N]⟩ ⟨2, ![n, 1]⟩ ⟨1, ![n]⟩) (d' : GatherDims ⟨1, ![N]⟩ ⟨2, ![n', 1]⟩ ⟨1, ![n']⟩)
    (hcoll : d.collapsedSliceDims = [0]) (hob : d.operandBatchingDims = []) (hsim : d.startIndexMap = [0]) (hivd : d.indexVectorDim = 1)
    (hcoll' : d'.collapsedSliceDims = [0]) (hob' : d'.operandBatchingDims = []) (hsim' : d'.startIndexMap = [0]) (hivd' : d'.indexVectorDim = 1)
    (hN : 0 < N) (x : (⟨1, ![N]⟩ : Shape).Idx → α) {idx : IVec ⟨2, ![n, 1]⟩ w} {idx' : IVec ⟨2, ![n', 1]⟩ w}
    (hi : ∀ p : Fin n, Gather.row N hN (idx' (ix2 (Fin.castLE h p) (0 : Fin 1))) = Gather.row N hN (idx (ix2 p (0 : Fin 1)))) :
    Ext1 h (Host.gather d x idx) (Host.gather d' x idx') := fun p => by
  rw [Gather.take1_apply d' hcoll' hob' hsim' hivd' hN, Gather.take1_apply d hcoll hob hsim hivd hN, hi p]

/-- A take of whole rows from an [N, C] table, likewise. -/
theorem ext2_takeRow (h : n ≤ n') (d : GatherDims ⟨2, ![N, C]⟩ ⟨2, ![n, 1]⟩ ⟨2, ![n, C]⟩) (d' : GatherDims ⟨2, ![N, C]⟩ ⟨2, ![n', 1]⟩ ⟨2, ![n', C]⟩)
    (hoff : d.offsetDims = [1]) (hcoll : d.collapsedSliceDims = [0]) (hob : d.operandBatchingDims = []) (hsim : d.startIndexMap = [0]) (hivd : d.indexVectorDim = 1)
    (hoff' : d'.offsetDims = [1]) (hcoll' : d'.collapsedSliceDims = [0]) (hob' : d'.operandBatchingDims = []) (hsim' : d'.startIndexMap = [0]) (hivd' : d'.indexVectorDim = 1)
    (hN : 0 < N) (x : (⟨2, ![N, C]⟩ : Shape).Idx → α) {idx : IVec ⟨2, ![n, 1]⟩ w} {idx' : IVec ⟨2, ![n', 1]⟩ w}
    (hi : ∀ p : Fin n, Gather.row N hN (idx' (ix2 (Fin.castLE h p) (0 : Fin 1))) = Gather.row N hN (idx (ix2 p (0 : Fin 1)))) :
    Ext2 h (Host.gather d x idx) (Host.gather d' x idx') := fun p q => by
  rw [Gather.takeRow_apply d' hoff' hcoll' hob' hsim' hivd' hN, Gather.takeRow_apply d hoff hcoll hob hsim hivd hN, hi p]

/-- Start indices that continue name the same rows. -/
theorem row_of_ext2 (h : n ≤ n') (hN : 0 < N) {idx : IVec ⟨2, ![n, 1]⟩ w} {idx' : IVec ⟨2, ![n', 1]⟩ w} (hi : Ext2 h idx idx') (p : Fin n) :
    Gather.row N hN (idx' (ix2 (Fin.castLE h p) (0 : Fin 1))) = Gather.row N hN (idx (ix2 p (0 : Fin 1))) := by
  rw [hi p 0]

/-! ## Segment sums -/

/-- A sum over the longer range whose terms past `n` vanish is the sum over the shorter one. -/
theorem sum_castLE {M : Type} [AddCommMonoid M] (h : n ≤ n') (f : Fin n → M) (f' : Fin n' → M)
    (h1 : ∀ p, f' (Fin.castLE h p) = f p) (h2 : ∀ p : Fin n', n ≤ p.val → f' p = 0) : ∑ p, f' p = ∑ p, f p := by
  rw [← Finset.sum_subset (Finset.subset_univ (Finset.univ.map (Fin.castLEEmb h))) (fun p _ hp => h2 p (by
        by_contra hlt
        exact hp (Finset.mem_map.mpr ⟨⟨p.val, by omega⟩, Finset.mem_univ _, Fin.ext rfl⟩))),
    Finset.sum_map]
  exact Finset.sum_congr rfl fun p _ => h1 p

/-- Segment sums of a vector: rows past `n` whose segment number is at least `N` land nowhere. -/
theorem segSum1_ext (h : n ≤ n') (d : ScatterDims ⟨1, ![N]⟩ ⟨2, ![n, 1]⟩ ⟨1, ![n]⟩) (d' : ScatterDims ⟨1, ![N]⟩ ⟨2, ![n', 1]⟩ ⟨1, ![n']⟩)
    (huw : d.updateWindowDims = []) (hiw : d.insertedWindowDims = [0]) (hsd : d.scatterDimsToOperandDims = [0]) (hivd : d.indexVectorDim = 1)
    (huw' : d'.updateWindowDims = []) (hiw' : d'.insertedWindowDims = [0]) (hsd' : d'.scatterDimsToOperandDims = [0]) (hivd' : d'.indexVectorDim = 1)
    (x : FVec Ideal ⟨1, ![N]⟩ φ) {idx : IVec ⟨2, ![n, 1]⟩ w} {idx' : IVec ⟨2, ![n', 1]⟩ w}
    {upd : FVec Ideal ⟨1, ![n]⟩ φ} {upd' : FVec Ideal ⟨1, ![n']⟩ φ} (hi : Ext2 h idx idx') (hu : Ext1 h upd upd')
    (hpad : ∀ p : Fin n', n ≤ p.val → (N : Int) ≤ (idx' (ix2 p (0 : Fin 1))).toInt) :
    Host.scatterAdd (F := Ideal) d' x idx' upd' = Host.scatterAdd (F := Ideal) d x idx upd := by
  funext i
  obtain ⟨i, rfl⟩ : ∃ i0 : Fin N, i = ix1 i0 := ⟨i 0, eq_ix1 i⟩
  rw [Scatter.segSum1_apply d' huw' hiw' hsd' hivd', Scatter.segSum1_apply d huw hiw hsd hivd]
  congr 1
  refine sum_castLE h _ _ (fun p => by rw [hi p 0, hu p]) (fun p hp => if_neg ?_)
  have := hpad p hp
  have := i.isLt
  omega

/-- Segment sums of rows, likewise. -/
theorem segSum2_ext (h : n ≤ n') (d : ScatterDims ⟨2, ![N, C]⟩ ⟨2, ![n, 1]⟩ ⟨2, ![n, C]⟩) (d' : ScatterDims ⟨2, ![N, C]⟩ ⟨2, ![n', 1]⟩ ⟨2, ![n', C]⟩)
    (huw : d.updateWindowDims = [1]) (hiw : d.insertedWindowDims = [0]) (hsd : d.scatterDimsToOperandDims = [0]) (hivd : d.indexVectorDim = 1)
    (huw' : d'.updateWindowDims = [1]) (hiw' : d'.insertedWindowDims = [0]) (hsd' : d'.scatterDimsToOperandDims = [0]) (hivd' : d'.indexVectorDim = 1)
    (x : FVec Ideal ⟨2, ![N, C]⟩ φ) {idx : IVec ⟨2, ![n, 1]⟩ w} {idx' : IVec ⟨2, ![n', 1]⟩ w}
    {upd : FVec Ideal ⟨2, ![n, C]⟩ φ} {upd' : FVec Ideal ⟨2, ![n', C]⟩ φ} (hi : Ext2 h idx idx') (hu : Ext2 h upd upd')
    (hpad : ∀ p : Fin n', n ≤ p.val → (N : Int) ≤ (idx' (ix2 p (0 : Fin 1))).toInt) :
    Host.scatterAdd (F := Ideal) d' x idx' upd' = Host.scatterAdd (F := Ideal) d x idx upd := by
  funext i
  obtain ⟨i, q, rfl⟩ : ∃ (i0 : Fin N) (q0 : Fin C), i = ix2 i0 q0 := ⟨i 0, i 1, eq_ix2 i⟩
  rw [Scatter.segSum2_apply d' huw' hiw' hsd' hivd', Scatter.segSum2_apply d huw hiw hsd hivd]
  congr 1
  refine sum_castLE h _ _ (fun p => by rw [hi p 0, hu p q]) (fun p hp => if_neg ?_)
  have := hpad p hp
  have := i.isLt
  omega

end Cert.Lib.Pad

end
-- ==== Proof.LibClamp.lean ====
/-
  Capping a start index at the table's last row does not change the row a take reads.

  jnp normalises an index before a take: a negative index counts from the end (`N` is added), any other index is
  kept; the take then clamps the result into [0, N - 1]. Capping the index at N - 1 first (as signed words) changes
  nothing: a negative index is below the cap and is kept; an index in range is kept; an index past the end becomes
  N - 1, which is the row the clamp gives it anyway. Here N = 100000 and the words are 32-bit.
-/
import Idealize.ShloMosaic.PureOps.Ideal
import proofs.«119266_j67216238182417_1_alg».proof.Proof.LibGather

noncomputable section

namespace Cert.Lib.Clamp

open Idealize.ShloMosaic

/-- The row read after normalising a negative index is the same whether or not the index was first capped at 99999. -/
theorem row_wrap_min (hN : 0 < 100000) (v : BitVec 32) :
    Gather.row 100000 hN
        (Scalar.select (IntOp.cmpi .slt (IntOp.minsi v 99999#32) 0#32) (IntOp.addi (IntOp.minsi v 99999#32) 100000#32)
          (IntOp.minsi v 99999#32))
      = Gather.row 100000 hN (Scalar.select (IntOp.cmpi .slt v 0#32) (IntOp.addi v 100000#32) v) := by
  have h9 : (99999#32 : BitVec 32).toInt = 99999 := by decide
  have h0 : (0#32 : BitVec 32).toInt = 0 := by decide
  -- the normalisation, by the sign of the word
  have hsel : ∀ u : BitVec 32, Scalar.select (IntOp.cmpi .slt u 0#32) (IntOp.addi u 100000#32) u
      = if u.toInt < 0 then u + 100000#32 else u := by
    intro u
    unfold Scalar.select IntOp.cmpi IntOp.addi
    by_cases hu : u.toInt < 0
    · have hs : u.slt 0#32 = true := BitVec.slt_iff_toInt_lt.mpr (by rw [h0]; exact hu)
      rw [if_pos hu]
      show (if BitVec.ofBool (u.slt 0#32) = 1 then u + 100000#32 else u) = _
      rw [hs]; rfl
    · have hs : u.slt 0#32 = false := by
        cases h : u.slt 0#32
        · rfl
        · exact absurd (by have := BitVec.slt_iff_toInt_lt.mp h; rwa [h0] at this) hu
      rw [if_neg hu]
      show (if BitVec.ofBool (u.slt 0#32) = 1 then u + 100000#32 else u) = _
      rw [hs]; rfl
  -- the cap, by the order of the word and 99999
  have hmin : IntOp.minsi v 99999#32 = if v.toInt < 99999 then v else 99999#32 := by
    unfold IntOp.minsi
    by_cases hv : v.toInt < 99999
    · rw [if_pos hv, if_pos (BitVec.slt_iff_toInt_lt.mpr (by rw [h9]; exact hv))]
    · rw [if_neg hv, if_neg (fun h => hv (by have := BitVec.slt_iff_toInt_lt.mp h; rwa [h9] at this))]
  rw [hsel, hsel, hmin]
  by_cases hv : v.toInt < 99999
  · -- below the cap the word is kept
    rw [if_pos hv]
  · -- at or past the cap: both sides read the last row
    rw [if_neg hv, if_neg (by rw [h9]; omega), if_neg (by omega)]
    apply Fin.ext
    show min (99999#32 : BitVec 32).toInt.toNat (100000 - 1) = min v.toInt.toNat (100000 - 1)
    rw [h9]
    omega

end Cert.Lib.Clamp

end
-- ==== Proof.NormCore.lean ====
/-
  The pieces both graph-convolution layers are made of, kernel program against reference.

  Over the reference's 3300000 edges and the kernel program's 3301376 rows (the same edges, then padding whose
  destination is 100000, one past the last node):
  * a start index is normalised the way jnp does before a take (a negative index counts from the end), row by row;
  * a take from a table of the 100000 nodes at the sources, and at the destinations — the kernel program caps its
    destinations at 99999 first, which names the same rows — continues the reference's take;
  * so does the edge normalisation `dinv[src] * w * dinv[dst]`;
  * the segment sums over the destinations (of the weights: the in-degrees; of rows of width 64 and of width 1: a
    layer's output) are EQUAL in the two programs: the padding rows' destination is out of range, so they land nowhere.
-/
import proofs.«119266_j67216238182417_1_alg».proof.Proof.Gen.KernelIdeal
import proofs.«119266_j67216238182417_1_alg».proof.Proof.Gen.ReferenceIdeal
import proofs.«119266_j67216238182417_1_alg».proof.Proof.LibPad
import proofs.«119266_j67216238182417_1_alg».proof.Proof.LibClamp
import Idealize.ShloMosaic.Lib.Pipeline.Value

set_option maxRecDepth 16384

noncomputable section

namespace Cert.KernelIdeal.NormCore

open Cert.KernelIdeal Cert.KernelIdeal.Gen Idealize.ShloMosaic Idealize.ShloMosaic.ValueIdx Cert.Lib.Pad Cert.Lib

/-- The reference has 3300000 edges, the kernel program 3301376 rows. -/
theorem hE : 3300000 ≤ 3301376 := by decide

/-! ## Normalising a start index -/

/-- jnp's normalisation over the reference's edges: `v < 0 ? v + 100000 : v`. -/
def wrapR (v : Cert.ReferenceIdeal.S3300000.Idx → BitVec 32) : Cert.ReferenceIdeal.S3300000.Idx → BitVec 32 :=
  select (cmpi .slt v (broadcastInDim Cert.ReferenceIdeal.S3300000 ![] Cert.ReferenceIdeal.Facts₀.bcast_S_S3300000 (constantI Cert.ReferenceIdeal.S_ 32 0#32)))
    (addi v (broadcastInDim Cert.ReferenceIdeal.S3300000 ![] Cert.ReferenceIdeal.Facts₀.bcast_S_S3300000 (constantI Cert.ReferenceIdeal.S_ 32 100000#32))) v

/-- The same over the kernel program's rows. -/
def wrapK (v : S3301376.Idx → BitVec 32) : S3301376.Idx → BitVec 32 :=
  select (cmpi .slt v (broadcastInDim S3301376 ![] bcast_S_S3301376 (constantI S_ 32 0#32)))
    (addi v (broadcastInDim S3301376 ![] bcast_S_S3301376 (constantI S_ 32 100000#32))) v

theorem wrap_ext {v : Cert.ReferenceIdeal.S3300000.Idx → BitVec 32} {v' : S3301376.Idx → BitVec 32} (h : Ext1 hE v v') :
    Ext1 hE (wrapR v) (wrapK v') :=
  ext1_select hE (ext1_cmpi hE _ h (ext1_splat hE _ _ _)) (ext1_addi hE h (ext1_splat hE _ _ _)) h

/-- Row `p` of the normalised kernel list, as words. -/
theorem wrapK_apply (v : S3301376.Idx → BitVec 32) (p : Fin 3301376) :
    wrapK v (ix1 p) = Scalar.select (IntOp.cmpi .slt (v (ix1 p)) 0#32) (IntOp.addi (v (ix1 p)) 100000#32) (v (ix1 p)) := by
  show Scalar.select (IntOp.cmpi .slt (v (ix1 p)) (broadcastInDim S3301376 ![] bcast_S_S3301376 (constantI S_ 32 0#32) (ix1 p)))
    (IntOp.addi (v (ix1 p)) (broadcastInDim S3301376 ![] bcast_S_S3301376 (constantI S_ 32 100000#32) (ix1 p))) (v (ix1 p)) = _
  rw [broadcastInDim_apply ![] bcast_S_S3301376 _ _ ix0 (fun a => a.elim0), broadcastInDim_apply ![] bcast_S_S3301376 _ _ ix0 (fun a => a.elim0)]
  rfl

/-- Row `p` of the normalised reference list, as words. -/
theorem wrapR_apply (v : Cert.ReferenceIdeal.S3300000.Idx → BitVec 32) (p : Fin 3300000) :
    wrapR v (ix1 p) = Scalar.select (IntOp.cmpi .slt (v (ix1 p)) 0#32) (IntOp.addi (v (ix1 p)) 100000#32) (v (ix1 p)) := by
  show Scalar.select (IntOp.cmpi .slt (v (ix1 p)) (broadcastInDim Cert.ReferenceIdeal.S3300000 ![] Cert.ReferenceIdeal.Facts₀.bcast_S_S3300000 (constantI Cert.ReferenceIdeal.S_ 32 0#32) (ix1 p)))
    (IntOp.addi (v (ix1 p)) (broadcastInDim Cert.ReferenceIdeal.S3300000 ![] Cert.ReferenceIdeal.Facts₀.bcast_S_S3300000 (constantI Cert.ReferenceIdeal.S_ 32 100000#32) (ix1 p))) (v (ix1 p)) = _
  rw [broadcastInDim_apply ![] Cert.ReferenceIdeal.Facts₀.bcast_S_S3300000 _ _ ix0 (fun a => a.elim0), broadcastInDim_apply ![] Cert.ReferenceIdeal.Facts₀.bcast_S_S3300000 _ _ ix0 (fun a => a.elim0)]
  rfl

/-- A list laid out as the column of start indices a take reads (kernel program's rows). -/
abbrev colK (v : S3301376.Idx → BitVec 32) : S3301376x1.Idx → BitVec 32 := broadcastInDim S3301376x1 ![0] bcast_S3301376_S3301376x1_0 v
/-- The same over the reference's edges. -/
abbrev colR (v : Cert.ReferenceIdeal.S3300000.Idx → BitVec 32) : Cert.ReferenceIdeal.S3300000x1.Idx → BitVec 32 :=
  broadcastInDim Cert.ReferenceIdeal.S3300000x1 ![0] Cert.ReferenceIdeal.Facts₀.bcast_S3300000_S3300000x1_0 v

theorem colK_apply (v : S3301376.Idx → BitVec 32) (p : Fin 3301376) : colK v (ix2 p (0 : Fin 1)) = v (ix1 p) :=
  broadcastInDim_apply ![0] bcast_S3301376_S3301376x1_0 v _ (ix1 p) (fun a => by match a with | ⟨0, _⟩ => rfl)

theorem colR_apply (v : Cert.ReferenceIdeal.S3300000.Idx → BitVec 32) (p : Fin 3300000) : colR v (ix2 p (0 : Fin 1)) = v (ix1 p) :=
  broadcastInDim_apply ![0] Cert.ReferenceIdeal.Facts₀.bcast_S3300000_S3300000x1_0 v _ (ix1 p) (fun a => by match a with | ⟨0, _⟩ => rfl)

/-! ## Takes from a node table -/

/-- The reference's take from a table over the 100000 nodes at a list of node numbers. -/
def take1R (tbl : S100000.Idx → EReal) (v : Cert.ReferenceIdeal.S3300000.Idx → BitVec 32) : Cert.ReferenceIdeal.S3300000.Idx → EReal :=
  Host.gather Cert.ReferenceIdeal.gather_S100000_S3300000x1_S3300000_n_0_n_n_0_1_1 tbl (colR (wrapR v))

/-- The kernel program's. -/
def take1K (tbl : S100000.Idx → EReal) (v : S3301376.Idx → BitVec 32) : S3301376.Idx → EReal :=
  Host.gather gather_S100000_S3301376x1_S3301376_n_0_n_n_0_1_1 tbl (colK (wrapK v))

theorem take1_ext (tbl : S100000.Idx → EReal) {v : Cert.ReferenceIdeal.S3300000.Idx → BitVec 32} {v' : S3301376.Idx → BitVec 32}
    (h : Ext1 hE v v') : Ext1 hE (take1R tbl v) (take1K tbl v') :=
  ext1_take1 hE _ _ rfl rfl rfl rfl rfl rfl rfl rfl (by decide) tbl
    (row_of_ext2 hE (by decide) (ext2_col hE _ _ (wrap_ext h)))

/-- The take at the CAPPED destinations reads the rows the reference's take at the destinations reads. -/
theorem take1_capped (tbl : S100000.Idx → EReal) {dst : Cert.ReferenceIdeal.S3300000.Idx → BitVec 32} {dstP dstC : S3301376.Idx → BitVec 32}
    (hd : Ext1 hE dst dstP) (hc : ∀ p : Fin 3301376, dstC (ix1 p) = IntOp.minsi (dstP (ix1 p)) 99999#32) :
    Ext1 hE (take1R tbl dst) (take1K tbl dstC) :=
  ext1_take1 hE _ _ rfl rfl rfl rfl rfl rfl rfl rfl (by decide) tbl (fun p => by
    rw [colK_apply, colR_apply, wrapK_apply, wrapR_apply, hc, hd p]
    exact Clamp.row_wrap_min _ _)

/-- The edge normalisation `tbl[src] * w * tbl[dst]` over the reference's edges. -/
def normR (tbl : S100000.Idx → EReal) (src dst : Cert.ReferenceIdeal.S3300000.Idx → BitVec 32) (ew : Cert.ReferenceIdeal.S3300000.Idx → EReal) :
    Cert.ReferenceIdeal.S3300000.Idx → EReal :=
  mulf (F := Ideal) (φ := .f32) (mulf (F := Ideal) (φ := .f32) (take1R tbl src) ew) (take1R tbl dst)

/-- The kernel program's, at its capped destinations. -/
def normK (tbl : S100000.Idx → EReal) (srcP dstC : S3301376.Idx → BitVec 32) (ewP : S3301376.Idx → EReal) : S3301376.Idx → EReal :=
  mulf (F := Ideal) (φ := .f32) (mulf (F := Ideal) (φ := .f32) (take1K tbl srcP) ewP) (take1K tbl dstC)

theorem norm_ext (tbl : S100000.Idx → EReal) {src dst : Cert.ReferenceIdeal.S3300000.Idx → BitVec 32} {ew : Cert.ReferenceIdeal.S3300000.Idx → EReal}
    {srcP dstP dstC : S3301376.Idx → BitVec 32} {ewP : S3301376.Idx → EReal}
    (hs : Ext1 hE src srcP) (hd : Ext1 hE dst dstP) (he : Ext1 hE ew ewP)
    (hc : ∀ p : Fin 3301376, dstC (ix1 p) = IntOp.minsi (dstP (ix1 p)) 99999#32) :
    Ext1 hE (normR tbl src dst ew) (normK tbl srcP dstC ewP) :=
  ext1_mulf (φ := .f32) hE (ext1_mulf (φ := .f32) hE (take1_ext tbl hs) he) (take1_capped tbl hd hc)

/-- Takes of whole rows of a [100000, 64] table at the sources. -/
def rows64R (tbl : S100000x64.Idx → EReal) (v : Cert.ReferenceIdeal.S3300000.Idx → BitVec 32) : Cert.ReferenceIdeal.S3300000x64.Idx → EReal :=
  Host.gather Cert.ReferenceIdeal.gather_S100000x64_S3300000x1_S3300000x64_1_0_n_n_0_1_164 tbl (colR (wrapR v))
def rows64K (tbl : S100000x64.Idx → EReal) (v : S3301376.Idx → BitVec 32) : S3301376x64.Idx → EReal :=
  Host.gather gather_S100000x64_S3301376x1_S3301376x64_1_0_n_n_0_1_164 tbl (colK (wrapK v))

theorem rows64_ext (tbl : S100000x64.Idx → EReal) {v : Cert.ReferenceIdeal.S3300000.Idx → BitVec 32} {v' : S3301376.Idx → BitVec 32}
    (h : Ext1 hE v v') : Ext2 hE (rows64R tbl v) (rows64K tbl v') :=
  ext2_takeRow hE _ _ rfl rfl rfl rfl rfl rfl rfl rfl rfl rfl (by decide) tbl
    (row_of_ext2 hE (by decide) (ext2_col hE _ _ (wrap_ext h)))

/-- Takes of the rows of a [100000, 1] table at the sources. -/
def rows1R (tbl : S100000x1.Idx → EReal) (v : Cert.ReferenceIdeal.S3300000.Idx → BitVec 32) : Cert.ReferenceIdeal.S3300000x1.Idx → EReal :=
  Host.gather Cert.ReferenceIdeal.gather_S100000x1_S3300000x1_S3300000x1_1_0_n_n_0_1_11 tbl (colR (wrapR v))
def rows1K (tbl : S100000x1.Idx → EReal) (v : S3301376.Idx → BitVec 32) : S3301376x1.Idx → EReal :=
  Host.gather gather_S100000x1_S3301376x1_S3301376x1_1_0_n_n_0_1_11 tbl (colK (wrapK v))

theorem rows1_ext (tbl : S100000x1.Idx → EReal) {v : Cert.ReferenceIdeal.S3300000.Idx → BitVec 32} {v' : S3301376.Idx → BitVec 32}
    (h : Ext1 hE v v') : Ext2 hE (rows1R tbl v) (rows1K tbl v') :=
  ext2_takeRow hE _ _ rfl rfl rfl rfl rfl rfl rfl rfl rfl rfl (by decide) tbl
    (row_of_ext2 hE (by decide) (ext2_col hE _ _ (wrap_ext h)))

/-! ## Segment sums over the destinations -/

/-- A padding row's segment number, read as a signed integer, is at least the number of nodes. -/
theorem pad_out_of_range {dstP : S3301376.Idx → BitVec 32} (hpad : ∀ p : Fin 3301376, 3300000 ≤ p.val → dstP (ix1 p) = 100000#32)
    (p : Fin 3301376) (hp : 3300000 ≤ p.val) : ((100000 : Nat) : Int) ≤ (colK dstP (ix2 p (0 : Fin 1))).toInt := by
  rw [colK_apply, hpad p hp]
  decide

/-- The in-degrees over the reference's edges: the weights summed by destination. -/
def degR (dst : Cert.ReferenceIdeal.S3300000.Idx → BitVec 32) (ew : Cert.ReferenceIdeal.S3300000.Idx → EReal) : S100000.Idx → EReal :=
  Host.scatterAdd (F := Ideal) (φ := .f32) Cert.ReferenceIdeal.scatter_S100000_S3300000x1_S3300000_n_0_0_1
    (broadcastInDim Cert.ReferenceIdeal.S100000 ![] Cert.ReferenceIdeal.Facts₀.bcast_S_S100000 (constant Cert.ReferenceIdeal.S_ .f32 0x00000000#32)) (colR dst) ew
/-- The kernel program's. -/
def degK (dstP : S3301376.Idx → BitVec 32) (ewP : S3301376.Idx → EReal) : S100000.Idx → EReal :=
  Host.scatterAdd (F := Ideal) (φ := .f32) scatter_S100000_S3301376x1_S3301376_n_0_0_1
    (broadcastInDim S100000 ![] bcast_S_S100000 (constant S_ .f32 0x00000000#32)) (colK dstP) ewP

theorem deg_eq {dst : Cert.ReferenceIdeal.S3300000.Idx → BitVec 32} {ew : Cert.ReferenceIdeal.S3300000.Idx → EReal}
    {dstP : S3301376.Idx → BitVec 32} {ewP : S3301376.Idx → EReal} (hd : Ext1 hE dst dstP)
    (hpad : ∀ p : Fin 3301376, 3300000 ≤ p.val → dstP (ix1 p) = 100000#32) (he : Ext1 hE ew ewP) :
    degK dstP ewP = degR dst ew :=
  segSum1_ext (φ := .f32) hE _ _ rfl rfl rfl rfl rfl rfl rfl rfl _ (ext2_col hE _ _ hd) he (pad_out_of_range hpad)

/-- A layer's output before the bias, width 64: the scaled rows summed by destination. -/
def sum64R (dst : Cert.ReferenceIdeal.S3300000.Idx → BitVec 32) (upd : Cert.ReferenceIdeal.S3300000x64.Idx → EReal) : S100000x64.Idx → EReal :=
  Host.scatterAdd (F := Ideal) (φ := .f32) Cert.ReferenceIdeal.scatter_S100000x64_S3300000x1_S3300000x64_1_0_0_1
    (broadcastInDim Cert.ReferenceIdeal.S100000x64 ![] Cert.ReferenceIdeal.Facts₀.bcast_S_S100000x64 (constant Cert.ReferenceIdeal.S_ .f32 0x00000000#32)) (colR dst) upd
def sum64K (dstP : S3301376.Idx → BitVec 32) (upd : S3301376x64.Idx → EReal) : S100000x64.Idx → EReal :=
  Host.scatterAdd (F := Ideal) (φ := .f32) scatter_S100000x64_S3301376x1_S3301376x64_1_0_0_1
    (broadcastInDim S100000x64 ![] bcast_S_S100000x64 (constant S_ .f32 0x00000000#32)) (colK dstP) upd

theorem sum64_eq {dst : Cert.ReferenceIdeal.S3300000.Idx → BitVec 32} {upd : Cert.ReferenceIdeal.S3300000x64.Idx → EReal}
    {dstP : S3301376.Idx → BitVec 32} {upd' : S3301376x64.Idx → EReal} (hd : Ext1 hE dst dstP)
    (hpad : ∀ p : Fin 3301376, 3300000 ≤ p.val → dstP (ix1 p) = 100000#32) (hu : Ext2 hE upd upd') :
    sum64K dstP upd' = sum64R dst upd :=
  segSum2_ext (φ := .f32) hE _ _ rfl rfl rfl rfl rfl rfl rfl rfl _ (ext2_col hE _ _ hd) hu (pad_out_of_range hpad)

/-- The same at width 1. -/
def sum1R (dst : Cert.ReferenceIdeal.S3300000.Idx → BitVec 32) (upd : Cert.ReferenceIdeal.S3300000x1.Idx → EReal) : S100000x1.Idx → EReal :=
  Host.scatterAdd (F := Ideal) (φ := .f32) Cert.ReferenceIdeal.scatter_S100000x1_S3300000x1_S3300000x1_1_0_0_1
    (broadcastInDim Cert.ReferenceIdeal.S100000x1 ![] Cert.ReferenceIdeal.Facts₀.bcast_S_S100000x1 (constant Cert.ReferenceIdeal.S_ .f32 0x00000000#32)) (colR dst) upd
def sum1K (dstP : S3301376.Idx → BitVec 32) (upd : S3301376x1.Idx → EReal) : S100000x1.Idx → EReal :=
  Host.scatterAdd (F := Ideal) (φ := .f32) scatter_S100000x1_S3301376x1_S3301376x1_1_0_0_1
    (broadcastInDim S100000x1 ![] bcast_S_S100000x1 (constant S_ .f32 0x00000000#32)) (colK dstP) upd

theorem sum1_eq {dst : Cert.ReferenceIdeal.S3300000.Idx → BitVec 32} {upd : Cert.ReferenceIdeal.S3300000x1.Idx → EReal}
    {dstP : S3301376.Idx → BitVec 32} {upd' : S3301376x1.Idx → EReal} (hd : Ext1 hE dst dstP)
    (hpad : ∀ p : Fin 3301376, 3300000 ≤ p.val → dstP (ix1 p) = 100000#32) (hu : Ext2 hE upd upd') :
    sum1K dstP upd' = sum1R dst upd :=
  segSum2_ext (φ := .f32) hE _ _ rfl rfl rfl rfl rfl rfl rfl rfl _ (ext2_col hE _ _ hd) hu (pad_out_of_range hpad)

end Cert.KernelIdeal.NormCore

end
-- ==== Proof.K0.lean ====
/-
  The kernel program's edge lists, against the reference's.

  Both programs append the self loops (an iota for the end points, ones for the weights) to the given edges, which
  makes 3300000 edges. The kernel program then pads the three lists to 3301376 = 403 × 8192 entries: source 0,
  destination 100000 (one past the last node) and weight 0. So each padded list continues the reference's list, and
  every destination past entry 3300000 is 100000. A fourth list is the padded destinations capped at 99999.
-/
import proofs.«119266_j67216238182417_1_alg».proof.Proof.Gen.KernelIdeal.Frame
import proofs.«119266_j67216238182417_1_alg».proof.Proof.Gen.ReferenceIdeal.Read
import proofs.«119266_j67216238182417_1_alg».proof.Proof.LibPad
import Idealize.ShloMosaic.Lib.StableHlo.Run

set_option maxRecDepth 16384

noncomputable section

namespace Cert.KernelIdeal.K0

open Cert.KernelIdeal Cert.KernelIdeal.Gen Idealize.ShloMosaic Idealize.ShloMosaic.TcCoe Idealize.ShloMosaic.StableHlo
open Idealize.ShloMosaic.ValueIdx Cert.Lib.Pad
open Cert.ReferenceIdeal.Read (val_main_v3 val_main_v6 val_main_v8)

/-- The reference has 3300000 edges, the kernel program 3301376 rows. -/
theorem hE : 3300000 ≤ 3301376 := by decide

variable (m : (ℓ : Loc nD τ sig) → Buf (Elt Ideal) ℓ) (ρ : Dev nD → PrngReg) (c : Dev nD)

/-! The four lists as the first region finds them, each at its literal type. -/
abbrev srcP : S3301376.Idx → BitVec 32 := W1 m ρ c (Proc.devRef .tc main_v10)
abbrev dstP : S3301376.Idx → BitVec 32 := W1 m ρ c (Proc.devRef .tc main_v12)
abbrev ewP : S3301376.Idx → EReal := W1 m ρ c (Proc.devRef .tc main_v14)
abbrev dstC : S3301376.Idx → BitVec 32 := W1 m ρ c (Proc.devRef .tc main_v16)

/-- The padded sources continue the reference's sources. -/
theorem src_ext : Ext1 hE (val_main_v3 (F := Ideal) (m ((c : Thread nD τ).loc main_arg1))) (srcP m ρ c) := by
  show Ext1 hE _ (StableHlo.after hostOps0 (W0 m ρ c) (Proc.devRef .tc main_v10))
  after_results
  exact ext1_concat hE _ _ _

/-- The padded destinations continue the reference's destinations. -/
theorem dst_ext : Ext1 hE (val_main_v6 (F := Ideal) (m ((c : Thread nD τ).loc main_arg1))) (dstP m ρ c) := by
  show Ext1 hE _ (StableHlo.after hostOps0 (W0 m ρ c) (Proc.devRef .tc main_v12))
  after_results
  exact ext1_concat hE _ _ _

/-- Past the reference's edges every destination is 100000, one past the last node. -/
theorem dst_pad (p : Fin 3301376) (hp : 3300000 ≤ p.val) : dstP m ρ c (ix1 p) = 100000#32 := by
  show StableHlo.after hostOps0 (W0 m ρ c) (Proc.devRef .tc main_v12) (ix1 p) = _
  after_results
  rw [concat_tail _ _ _ p hp (by have := p.isLt; omega)]
  rfl

/-- The padded weights continue the reference's weights. -/
theorem ew_ext : Ext1 hE (val_main_v8 (F := Ideal) (m ((c : Thread nD τ).loc main_arg2))) (ewP m ρ c) := by
  show Ext1 hE _ (StableHlo.after hostOps0 (W0 m ρ c) (Proc.devRef .tc main_v14))
  after_results
  exact ext1_concat hE _ _ _

/-- The capped destinations, entry by entry: the smaller of the destination and 99999 as signed words. -/
theorem dstC_apply (p : Fin 3301376) : dstC m ρ c (ix1 p) = IntOp.minsi (dstP m ρ c (ix1 p)) 99999#32 := by
  show StableHlo.after hostOps0 (W0 m ρ c) (Proc.devRef .tc main_v16) (ix1 p)
    = IntOp.minsi (StableHlo.after hostOps0 (W0 m ρ c) (Proc.devRef .tc main_v12) (ix1 p)) 99999#32
  after_results
  rfl

end Cert.KernelIdeal.K0

end
-- ==== Proof.Kept.lean ====
/-
  The edge lists outlive the regions.

  The four padded edge lists are written once, before the first region. No later host operation writes them and no
  region has them as an output, so at every later segment boundary they still hold what the first host stretch left:
  a stretch of host operations leaves a buffer none of them writes as it was, and a region leaves every buffer that
  is not one of its arrays as it was.
-/
import proofs.«119266_j67216238182417_1_alg».proof.Proof.Gen.KernelIdeal.Frame
import Idealize.ShloMosaic.Lib.StableHlo.Run

set_option maxRecDepth 16384

noncomputable section

namespace Cert.KernelIdeal.Kept

open Cert.KernelIdeal Cert.KernelIdeal.Gen Idealize.ShloMosaic Idealize.ShloMosaic.TcCoe Idealize.ShloMosaic.StableHlo

/-- A stretch of host operations keeps a buffer that none of them writes: the stretch's written buffers are listed and
    told apart from the buffer one by one. -/
macro "host_keeps" : tactic => `(tactic| (
  refine StableHlo.after_of_forall_not_mem _ _ (List.forall_iff_forall_mem.mp ?_)
  simp only [hostOps0, hostOps1, hostOps1_1, hostOps1_2, hostOps2, hostOps2_1, hostOps3, hostOps3_1, hostOps3_2, hostOps4,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg) (c : Dev nD)

/-! ### `main_v10` -/

/-- Across region 0. -/
theorem W2_v10 : W2 m ρ c (Proc.devRef .tc main_v10) = W1 m ρ c (Proc.devRef .tc main_v10) := W2_of_ne m ρ c main_v10 (by decide)

/-- Across the second host stretch and region 1. -/
theorem W6_v10 : W6 m ρ c (Proc.devRef .tc main_v10) = W1 m ρ c (Proc.devRef .tc main_v10) :=
  calc W6 m ρ c (Proc.devRef .tc main_v10)
    _ = W5 m ρ c (Proc.devRef .tc main_v10) := W6_of_ne m ρ c main_v10 (by decide)
    _ = W4 m ρ c (Proc.devRef .tc main_v10) := by host_keeps
    _ = W3 m ρ c (Proc.devRef .tc main_v10) := by host_keeps
    _ = W2 m ρ c (Proc.devRef .tc main_v10) := by host_keeps
    _ = W1 m ρ c (Proc.devRef .tc main_v10) := W2_v10 m ρ c

/-- Across the third host stretch and region 2. -/
theorem W9_v10 : W9 m ρ c (Proc.devRef .tc main_v10) = W1 m ρ c (Proc.devRef .tc main_v10) :=
  calc W9 m ρ c (Proc.devRef .tc main_v10)
    _ = W8 m ρ c (Proc.devRef .tc main_v10) := W9_of_ne m ρ c main_v10 (by decide)
    _ = W7 m ρ c (Proc.devRef .tc main_v10) := by host_keeps
    _ = W6 m ρ c (Proc.devRef .tc main_v10) := by host_keeps
    _ = W1 m ρ c (Proc.devRef .tc main_v10) := W6_v10 m ρ c

/-! ### `main_v12` -/

/-- Across region 0. -/
theorem W2_v12 : W2 m ρ c (Proc.devRef .tc main_v12) = W1 m ρ c (Proc.devRef .tc main_v12) := W2_of_ne m ρ c main_v12 (by decide)

/-- Across the second host stretch and region 1. -/
theorem W6_v12 : W6 m ρ c (Proc.devRef .tc main_v12) = W1 m ρ c (Proc.devRef .tc main_v12) :=
  calc W6 m ρ c (Proc.devRef .tc main_v12)
    _ = W5 m ρ c (Proc.devRef .tc main_v12) := W6_of_ne m ρ c main_v12 (by decide)
    _ = W4 m ρ c (Proc.devRef .tc main_v12) := by host_keeps
    _ = W3 m ρ c (Proc.devRef .tc main_v12) := by host_keeps
    _ = W2 m ρ c (Proc.devRef .tc main_v12) := by host_keeps
    _ = W1 m ρ c (Proc.devRef .tc main_v12) := W2_v12 m ρ c

/-- Across the third host stretch and region 2. -/
theorem W9_v12 : W9 m ρ c (Proc.devRef .tc main_v12) = W1 m ρ c (Proc.devRef .tc main_v12) :=
  calc W9 m ρ c (Proc.devRef .tc main_v12)
    _ = W8 m ρ c (Proc.devRef .tc main_v12) := W9_of_ne m ρ c main_v12 (by decide)
    _ = W7 m ρ c (Proc.devRef .tc main_v12) := by host_keeps
    _ = W6 m ρ c (Proc.devRef .tc main_v12) := by host_keeps
    _ = W1 m ρ c (Proc.devRef .tc main_v12) := W6_v12 m ρ c

/-! ### `main_v14` -/

/-- Across region 0. -/
theorem W2_v14 : W2 m ρ c (Proc.devRef .tc main_v14) = W1 m ρ c (Proc.devRef .tc main_v14) := W2_of_ne m ρ c main_v14 (by decide)

/-- Across the second host stretch and region 1. -/
theorem W6_v14 : W6 m ρ c (Proc.devRef .tc main_v14) = W1 m ρ c (Proc.devRef .tc main_v14) :=
  calc W6 m ρ c (Proc.devRef .tc main_v14)
    _ = W5 m ρ c (Proc.devRef .tc main_v14) := W6_of_ne m ρ c main_v14 (by decide)
    _ = W4 m ρ c (Proc.devRef .tc main_v14) := by host_keeps
    _ = W3 m ρ c (Proc.devRef .tc main_v14) := by host_keeps
    _ = W2 m ρ c (Proc.devRef .tc main_v14) := by host_keeps
    _ = W1 m ρ c (Proc.devRef .tc main_v14) := W2_v14 m ρ c

/-- Across the third host stretch and region 2. -/
theorem W9_v14 : W9 m ρ c (Proc.devRef .tc main_v14) = W1 m ρ c (Proc.devRef .tc main_v14) :=
  calc W9 m ρ c (Proc.devRef .tc main_v14)
    _ = W8 m ρ c (Proc.devRef .tc main_v14) := W9_of_ne m ρ c main_v14 (by decide)
    _ = W7 m ρ c (Proc.devRef .tc main_v14) := by host_keeps
    _ = W6 m ρ c (Proc.devRef .tc main_v14) := by host_keeps
    _ = W1 m ρ c (Proc.devRef .tc main_v14) := W6_v14 m ρ c

/-! ### `main_v16` -/

/-- Across region 0. -/
theorem W2_v16 : W2 m ρ c (Proc.devRef .tc main_v16) = W1 m ρ c (Proc.devRef .tc main_v16) := W2_of_ne m ρ c main_v16 (by decide)

/-- Across the second host stretch and region 1. -/
theorem W6_v16 : W6 m ρ c (Proc.devRef .tc main_v16) = W1 m ρ c (Proc.devRef .tc main_v16) :=
  calc W6 m ρ c (Proc.devRef .tc main_v16)
    _ = W5 m ρ c (Proc.devRef .tc main_v16) := W6_of_ne m ρ c main_v16 (by decide)
    _ = W4 m ρ c (Proc.devRef .tc main_v16) := by host_keeps
    _ = W3 m ρ c (Proc.devRef .tc main_v16) := by host_keeps
    _ = W2 m ρ c (Proc.devRef .tc main_v16) := by host_keeps
    _ = W1 m ρ c (Proc.devRef .tc main_v16) := W2_v16 m ρ c

/-- Across the third host stretch and region 2. -/
theorem W9_v16 : W9 m ρ c (Proc.devRef .tc main_v16) = W1 m ρ c (Proc.devRef .tc main_v16) :=
  calc W9 m ρ c (Proc.devRef .tc main_v16)
    _ = W8 m ρ c (Proc.devRef .tc main_v16) := W9_of_ne m ρ c main_v16 (by decide)
    _ = W7 m ρ c (Proc.devRef .tc main_v16) := by host_keeps
    _ = W6 m ρ c (Proc.devRef .tc main_v16) := by host_keeps
    _ = W1 m ρ c (Proc.devRef .tc main_v16) := W6_v16 m ρ c

/-- The padded destinations across the fourth host stretch and region 3. -/
theorem W13_v12 : W13 m ρ c (Proc.devRef .tc main_v12) = W1 m ρ c (Proc.devRef .tc main_v12) :=
  calc W13 m ρ c (Proc.devRef .tc main_v12)
    _ = W12 m ρ c (Proc.devRef .tc main_v12) := W13_of_ne m ρ c main_v12 (by decide)
    _ = W11 m ρ c (Proc.devRef .tc main_v12) := by host_keeps
    _ = W10 m ρ c (Proc.devRef .tc main_v12) := by host_keeps
    _ = W9 m ρ c (Proc.devRef .tc main_v12) := by host_keeps
    _ = W1 m ρ c (Proc.devRef .tc main_v12) := W9_v12 m ρ c

/-! ### The arguments, where a region or a later stretch reads them: nothing writes an argument -/

theorem W1_arg0 : W1 m ρ c (Proc.devRef .tc main_arg0) = m ((c : Thread nD τ).loc main_arg0) :=
  calc W1 m ρ c (Proc.devRef .tc main_arg0)
    _ = W0 m ρ c (Proc.devRef .tc main_arg0) := by host_keeps
    _ = m ((c : Thread nD τ).loc main_arg0) := rfl

theorem W1_arg3 : W1 m ρ c (Proc.devRef .tc main_arg3) = m ((c : Thread nD τ).loc main_arg3) :=
  calc W1 m ρ c (Proc.devRef .tc main_arg3)
    _ = W0 m ρ c (Proc.devRef .tc main_arg3) := by host_keeps
    _ = m ((c : Thread nD τ).loc main_arg3) := rfl

theorem W6_arg4 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps
    _ = W3 m ρ c (Proc.devRef .tc main_arg4) := by host_keeps
    _ = W2 m ρ c (Proc.devRef .tc main_arg4) := by host_keeps
    _ = W1 m ρ c (Proc.devRef .tc main_arg4) := W2_of_ne m ρ c main_arg4 (by decide)
    _ = W0 m ρ c (Proc.devRef .tc main_arg4) := by host_keeps
    _ = m ((c : Thread nD τ).loc main_arg4) := rfl

theorem W8_arg5 : W8 m ρ c (Proc.devRef .tc main_arg5) = m ((c : Thread nD τ).loc main_arg5) :=
  calc W8 m ρ c (Proc.devRef .tc main_arg5)
    _ = W7 m ρ c (Proc.devRef .tc main_arg5) := by host_keeps
    _ = W6 m ρ c (Proc.devRef .tc main_arg5) := by host_keeps
    _ = W5 m ρ c (Proc.devRef .tc main_arg5) := W6_of_ne m ρ c main_arg5 (by decide)
    _ = W4 m ρ c (Proc.devRef .tc main_arg5) := by host_keeps
    _ = W3 m ρ c (Proc.devRef .tc main_arg5) := by host_keeps
    _ = W2 m ρ c (Proc.devRef .tc main_arg5) := by host_keeps
    _ = W1 m ρ c (Proc.devRef .tc main_arg5) := W2_of_ne m ρ c main_arg5 (by decide)
    _ = W0 m ρ c (Proc.devRef .tc main_arg5) := by host_keeps
    _ = m ((c : Thread nD τ).loc main_arg5) := rfl

theorem W13_arg6 : W13 m ρ c (Proc.devRef .tc main_arg6) = m ((c : Thread nD τ).loc main_arg6) :=
  calc W13 m ρ c (Proc.devRef .tc main_arg6)
    _ = W12 m ρ c (Proc.devRef .tc main_arg6) := W13_of_ne m ρ c main_arg6 (by decide)
    _ = W11 m ρ c (Proc.devRef .tc main_arg6) := by host_keeps
    _ = W10 m ρ c (Proc.devRef .tc main_arg6) := by host_keeps
    _ = W9 m ρ c (Proc.devRef .tc main_arg6) := by host_keeps
    _ = W8 m ρ c (Proc.devRef .tc main_arg6) := W9_of_ne m ρ c main_arg6 (by decide)
    _ = W7 m ρ c (Proc.devRef .tc main_arg6) := by host_keeps
    _ = W6 m ρ c (Proc.devRef .tc main_arg6) := by host_keeps
    _ = W5 m ρ c (Proc.devRef .tc main_arg6) := W6_of_ne m ρ c main_arg6 (by decide)
    _ = W4 m ρ c (Proc.devRef .tc main_arg6) := by host_keeps
    _ = W3 m ρ c (Proc.devRef .tc main_arg6) := by host_keeps
    _ = W2 m ρ c (Proc.devRef .tc main_arg6) := by host_keeps
    _ = W1 m ρ c (Proc.devRef .tc main_arg6) := W2_of_ne m ρ c main_arg6 (by decide)
    _ = W0 m ρ c (Proc.devRef .tc main_arg6) := by host_keeps
    _ = m ((c : Thread nD τ).loc main_arg6) := rfl

end Cert.KernelIdeal.Kept

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KRegScale.lean ====
/-
  What the two scaling regions leave in their output arrays, entry by entry, at the ideal instance.

  Each tiles both operands into 403 blocks of 8192 rows and writes back, row by row, the second operand's row times the
  first operand's entry for that row (a column of width one, broadcast along the row); 403 blocks of 8192 rows are all
  3301376 rows.
-/
import proofs.«119266_j67216238182417_1_alg».proof.Proof.Gen.KernelIdeal.Frame
import proofs.«119266_j67216238182417_1_alg».proof.Proof.LibDot2
import Idealize.ShloMosaic.Lib.ValueIdx
import Idealize.ShloMosaic.Lib.Pipeline.Value

set_option maxRecDepth 16384

noncomputable section

namespace Cert.KernelIdeal.RegScale

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! The arrays a region finds and the one it leaves, each named at its literal type (extended reals over its index set). -/
abbrev in1_s (c : Dev nD) : S3301376x1.Idx → EReal := V c main_v50
abbrev in1_x (c : Dev nD) : S3301376x64.Idx → EReal := V c main_v49
abbrev out1 (c : Dev nD) : S3301376x64.Idx → EReal := (dat1 (F := Ideal) V c).arrAt 2 cfg1.N
abbrev in3_s (c : Dev nD) : S3301376x1.Idx → EReal := V c main_v92
abbrev in3_x (c : Dev nD) : S3301376x1.Idx → EReal := V c main_v91
abbrev out3 (c : Dev nD) : S3301376x1.Idx → EReal := (dat3 (F := Ideal) V c).arrAt 2 cfg3.N

/-- The offsets of a whole-buffer access, however the zeros are spelt. -/
theorem zero_offsets : (![0, 0] : Fin 2 → Nat) = fun _ => 0 := funext fun a => by fin_cases a <;> rfl

/-! ## Region 1 -/

/-- What region 1's output array ends holding, as one function of the two arrays it reads. -/
abbrev scaled1 (s : S3301376x1.Idx → EReal) (x : S3301376x64.Idx → EReal) : S3301376x64.Idx → EReal :=
  fun i => x i * s (ix2 (i 0 : Fin 3301376) (0 : Fin 1))

/-- The three windows' block indices at a grid point: the point's number along the rows, zero along the columns. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's product at an entry of the block: the row's entry times the column block's entry for that row. -/
theorem product1_apply (x1 : Vec Ideal S8192x64 .f32) (x0 : Vec Ideal S8192x1 .f32) (j : S8192x64.Idx) :
    k1_pay1 x1 x0 j = x1 j * x0 (ix2 (j 0 : Fin 8192) (0 : Fin 1)) := by
  unfold k1_pay1
  rw [mulf_apply, shapeCast_self, shapeCast_self]
  refine congrArg (x1 j * ·) ?_
  refine broadcastTo_apply _ _ _ _ fun a => ?_
  match a with
  | ⟨0, _⟩ => rfl
  | ⟨1, _⟩ => rfl

/-- The two input windows' blocks at a grid point, each at its literal type. -/
abbrev column_block1 (c : Dev nD) (t : Fin cfg1.N) : Vec Ideal S8192x1 .f32 := iblk1 (F := Ideal) V c 0 t
abbrev row_block1 (c : Dev nD) (t : Fin cfg1.N) : Vec Ideal S8192x64 .f32 := iblk1 (F := Ideal) V c 1 t

/-- The column window's block at point `t` is rows `8192 t …` of the column array. -/
theorem column_block1_apply (c : Dev nD) (t : Fin cfg1.N) (j : S8192x1.Idx) (k : S3301376x1.Idx)
    (hk0 : (k 0).val = t.val * 8192 + (j 0).val) (hk1 : (k 1).val = (j 1).val) :
    column_block1 V c t j = in1_s V c k := by
  obtain ⟨e0, e1, -, -, -, -⟩ := block_index1 t
  unfold column_block1 iblk1
  rw [View.read_apply]
  show V c main_v50 _ = V c main_v50 _
  congr 1
  funext a; apply Fin.ext
  match a with
  | ⟨0, _⟩ => show win1_0.index t (0 : Fin 2) * 8192 + 1 * (j 0).val = (k 0).val; rw [e0, hk0]; omega
  | ⟨1, _⟩ => show win1_0.index t (1 : Fin 2) * 1 + 1 * (j 1).val = (k 1).val; rw [e1, hk1]; omega

/-- The row window's block at point `t` is rows `8192 t …` of the row array. -/
theorem row_block1_apply (c : Dev nD) (t : Fin cfg1.N) (j : S8192x64.Idx) (k : S3301376x64.Idx)
    (hk0 : (k 0).val = t.val * 8192 + (j 0).val) (hk1 : (k 1).val = (j 1).val) :
    row_block1 V c t j = in1_x V c k := by
  obtain ⟨-, -, e0, e1, -, -⟩ := block_index1 t
  unfold row_block1 iblk1
  rw [View.read_apply]
  show V c main_v49 _ = V c main_v49 _
  congr 1
  funext a; apply Fin.ext
  match a with
  | ⟨0, _⟩ => show win1_1.index t (0 : Fin 2) * 8192 + 1 * (j 0).val = (k 0).val; rw [e0, hk0]; omega
  | ⟨1, _⟩ => show win1_1.index t (1 : Fin 2) * 64 + 1 * (j 1).val = (k 1).val; rw [e1, hk1]; omega

/-- The body's product of point `t`'s blocks, at a block entry that sits at `k` in the array, is `scaled1` at `k`. -/
theorem product1_blocks (c : Dev nD) (t : Fin cfg1.N) (j : S8192x64.Idx) (k : S3301376x64.Idx)
    (hk0 : (k 0).val = t.val * 8192 + (j 0).val) (hk1 : (k 1).val = (j 1).val) :
    k1_pay1 (row_block1 V c t) (column_block1 V c t) j = scaled1 (in1_s V c) (in1_x V c) k := by
  refine (product1_apply (row_block1 V c t) (column_block1 V c t) j).trans ?_
  show row_block1 V c t j * column_block1 V c t (ix2 (j 0 : Fin 8192) (0 : Fin 1))
      = in1_x V c k * in1_s V c (ix2 (k 0 : Fin 3301376) (0 : Fin 1))
  rw [row_block1_apply V c t j k hk0 hk1,
    column_block1_apply V c t (ix2 (j 0 : Fin 8192) (0 : Fin 1)) (ix2 (k 0 : Fin 3301376) (0 : Fin 1)) hk0 rfl]

/-- What point `t` writes back is block `t` of `scaled1` of the arrays as the region finds them. -/
theorem flushed1_eq (c : Dev nD) (t : Fin cfg1.N) :
    (dat1 (F := Ideal) V c).flushed 2 t
      = ((cfg1.win 2).blk t).view.read (Elt Ideal) (scaled1 (in1_s V c) (in1_x V c)) := by
  show (cfg1.win 2).cut (grid1.coords t) ((dat1 V c).after 2 t) = _
  rw [after1_2]
  unfold out1_2
  rw [View.canon_unit_zero zero_offsets]
  simp only [View.ld_unit_zero (S := S8192x64) zero_offsets, View.ld_unit_zero (S := S8192x1) zero_offsets]
  obtain ⟨-, -, -, -, e0, e1⟩ := block_index1 t
  funext j
  show k1_pay1 (row_block1 V c t) (column_block1 V c t) j = scaled1 (in1_s V c) (in1_x V c) (((cfg1.win 2).blk t).view.emb j)
  refine product1_blocks V c t j _ ?_ ?_
  · show win1_2.index t (0 : Fin 2) * 8192 + 1 * (j 0).val = _; rw [e0]; omega
  · show win1_2.index t (1 : Fin 2) * 64 + 1 * (j 1).val = _; rw [e1]; omega

/-- An index of the output array is in point `t`'s block iff each coordinate is in the block's range on its axis. -/
theorem mem_block1 (t : Fin cfg1.N) (i : S3301376x64.Idx) :
    i ∈ ((cfg1.win 2).blk t).view.set
      ↔ ∀ a : Fin 2, win1_2.index t a * S8192x64.size a ≤ (i a).val
          ∧ (i a).val < win1_2.index t a * S8192x64.size a + S8192x64.size a := by
  show i ∈ ((View.whole main_v51).slice (win1_2.rect t)).set ↔ _
  rw [View.set_slice_whole, Rect.mem_set_unit]
  exact Iff.rfl

/-- Every row is in some point's block: row `r` in that of point `r / 8192`, as 403 × 8192 = 3301376. -/
theorem cover1 (i : S3301376x64.Idx) :
    ∃ t : Fin cfg1.N, (cfg1.win 2).flush t = true ∧ i ∈ ((cfg1.win 2).blk t).view.set := by
  have hi0 : (i 0).val < 3301376 := (i 0).isLt
  have hi1 : (i 1).val < 64 := (i 1).isLt
  have hN : cfg1.N = 403 := N_1
  obtain ⟨t, ht⟩ : ∃ t : Fin cfg1.N, t.val = (i 0).val / 8192 := ⟨⟨(i 0).val / 8192, by rw [hN]; omega⟩, rfl⟩
  obtain ⟨-, -, -, -, e0, e1⟩ := block_index1 t
  refine ⟨t, flush1_2 t, ?_⟩
  rw [mem_block1]
  intro a
  match a with
  | ⟨0, _⟩ =>
    show win1_2.index t (0 : Fin 2) * 8192 ≤ (i 0).val ∧ (i 0).val < win1_2.index t (0 : Fin 2) * 8192 + 8192
    rw [e0, ht]; omega
  | ⟨1, _⟩ =>
    show win1_2.index t (1 : Fin 2) * 64 ≤ (i 1).val ∧ (i 1).val < win1_2.index t (1 : Fin 2) * 64 + 64
    rw [e1]; omega

/-- Region 1's output array after the run is `scaled1` of the two arrays it reads. -/
theorem arr1_eq (c : Dev nD) : out1 V c = scaled1 (in1_s V c) (in1_x V c) :=
  (dat1 (F := Ideal) V c).arrAt_eq_of_cover 2 (scaled1 (in1_s V c) (in1_x V c))
    (fun t _ => flushed1_eq V c t) (cover1)

/-- Region 1: row `p` of the [3301376, 64] array scaled by entry `p` of the [3301376, 1] column. -/
theorem arr1_apply (c : Dev nD) (p : Fin 3301376) (q : Fin 64) :
    out1 V c (ix2 p q) = in1_x V c (ix2 p q) * in1_s V c (ix2 p (0 : Fin 1)) := by
  exact congrFun (arr1_eq V c) (ix2 p q)

/-! ## Region 3 -/

/-- What region 3's output column ends holding, as one function of the two columns it reads. -/
abbrev scaled3 (s : S3301376x1.Idx → EReal) (x : S3301376x1.Idx → EReal) : S3301376x1.Idx → EReal :=
  fun i => x i * s i

/-- The three windows' block indices at a grid point: the point's number along the rows, zero along the columns. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The body's product at an entry of the block: the two blocks' entries there, multiplied. -/
theorem product3_apply (x1 : Vec Ideal S8192x1 .f32) (x0 : Vec Ideal S8192x1 .f32) (j : S8192x1.Idx) :
    k3_pay1 x1 x0 j = x1 j * x0 j := by
  unfold k3_pay1
  rw [mulf_apply, shapeCast_self, shapeCast_self]

/-- The two input windows' blocks at a grid point, each at its literal type. -/
abbrev first_block3 (c : Dev nD) (t : Fin cfg3.N) : Vec Ideal S8192x1 .f32 := iblk3 (F := Ideal) V c 0 t
abbrev second_block3 (c : Dev nD) (t : Fin cfg3.N) : Vec Ideal S8192x1 .f32 := iblk3 (F := Ideal) V c 1 t

/-- The first window's block at point `t` is rows `8192 t …` of the first column. -/
theorem first_block3_apply (c : Dev nD) (t : Fin cfg3.N) (j : S8192x1.Idx) (k : S3301376x1.Idx)
    (hk0 : (k 0).val = t.val * 8192 + (j 0).val) (hk1 : (k 1).val = (j 1).val) :
    first_block3 V c t j = in3_s V c k := by
  obtain ⟨e0, e1, -, -, -, -⟩ := block_index3 t
  unfold first_block3 iblk3
  rw [View.read_apply]
  show V c main_v92 _ = V c main_v92 _
  congr 1
  funext a; apply Fin.ext
  match a with
  | ⟨0, _⟩ => show win3_0.index t (0 : Fin 2) * 8192 + 1 * (j 0).val = (k 0).val; rw [e0, hk0]; omega
  | ⟨1, _⟩ => show win3_0.index t (1 : Fin 2) * 1 + 1 * (j 1).val = (k 1).val; rw [e1, hk1]; omega

/-- The second window's block at point `t` is rows `8192 t …` of the second column. -/
theorem second_block3_apply (c : Dev nD) (t : Fin cfg3.N) (j : S8192x1.Idx) (k : S3301376x1.Idx)
    (hk0 : (k 0).val = t.val * 8192 + (j 0).val) (hk1 : (k 1).val = (j 1).val) :
    second_block3 V c t j = in3_x V c k := by
  obtain ⟨-, -, e0, e1, -, -⟩ := block_index3 t
  unfold second_block3 iblk3
  rw [View.read_apply]
  show V c main_v91 _ = V c main_v91 _
  congr 1
  funext a; apply Fin.ext
  match a with
  | ⟨0, _⟩ => show win3_1.index t (0 : Fin 2) * 8192 + 1 * (j 0).val = (k 0).val; rw [e0, hk0]; omega
  | ⟨1, _⟩ => show win3_1.index t (1 : Fin 2) * 1 + 1 * (j 1).val = (k 1).val; rw [e1, hk1]; omega

/-- The body's product of point `t`'s blocks, at a block entry that sits at `k` in the array, is `scaled3` at `k`. -/
theorem product3_blocks (c : Dev nD) (t : Fin cfg3.N) (j : S8192x1.Idx) (k : S3301376x1.Idx)
    (hk0 : (k 0).val = t.val * 8192 + (j 0).val) (hk1 : (k 1).val = (j 1).val) :
    k3_pay1 (second_block3 V c t) (first_block3 V c t) j = scaled3 (in3_s V c) (in3_x V c) k := by
  refine (product3_apply (second_block3 V c t) (first_block3 V c t) j).trans ?_
  show second_block3 V c t j * first_block3 V c t j = in3_x V c k * in3_s V c k
  rw [second_block3_apply V c t j k hk0 hk1, first_block3_apply V c t j k hk0 hk1]

/-- What point `t` writes back is block `t` of `scaled3` of the columns as the region finds them. -/
theorem flushed3_eq (c : Dev nD) (t : Fin cfg3.N) :
    (dat3 (F := Ideal) V c).flushed 2 t
      = ((cfg3.win 2).blk t).view.read (Elt Ideal) (scaled3 (in3_s V c) (in3_x V c)) := by
  show (cfg3.win 2).cut (grid3.coords t) ((dat3 V c).after 2 t) = _
  rw [after3_2]
  unfold out3_2
  rw [View.canon_unit_zero zero_offsets]
  simp only [View.ld_unit_zero (S := S8192x1) zero_offsets]
  obtain ⟨-, -, -, -, e0, e1⟩ := block_index3 t
  funext j
  show k3_pay1 (second_block3 V c t) (first_block3 V c t) j
    = scaled3 (in3_s V c) (in3_x V c) (((cfg3.win 2).blk t).view.emb j)
  refine product3_blocks V c t j _ ?_ ?_
  · show win3_2.index t (0 : Fin 2) * 8192 + 1 * (j 0).val = _; rw [e0]; omega
  · show win3_2.index t (1 : Fin 2) * 1 + 1 * (j 1).val = _; rw [e1]; omega

/-- An index of the output column is in point `t`'s block iff each coordinate is in the block's range on its axis. -/
theorem mem_block3 (t : Fin cfg3.N) (i : S3301376x1.Idx) :
    i ∈ ((cfg3.win 2).blk t).view.set
      ↔ ∀ a : Fin 2, win3_2.index t a * S8192x1.size a ≤ (i a).val
          ∧ (i a).val < win3_2.index t a * S8192x1.size a + S8192x1.size a := by
  show i ∈ ((View.whole main_v93).slice (win3_2.rect t)).set ↔ _
  rw [View.set_slice_whole, Rect.mem_set_unit]
  exact Iff.rfl

/-- Every row is in some point's block: row `r` in that of point `r / 8192`, as 403 × 8192 = 3301376. -/
theorem cover3 (i : S3301376x1.Idx) :
    ∃ t : Fin cfg3.N, (cfg3.win 2).flush t = true ∧ i ∈ ((cfg3.win 2).blk t).view.set := by
  have hi0 : (i 0).val < 3301376 := (i 0).isLt
  have hi1 : (i 1).val < 1 := (i 1).isLt
  have hN : cfg3.N = 403 := N_3
  obtain ⟨t, ht⟩ : ∃ t : Fin cfg3.N, t.val = (i 0).val / 8192 := ⟨⟨(i 0).val / 8192, by rw [hN]; omega⟩, rfl⟩
  obtain ⟨-, -, -, -, e0, e1⟩ := block_index3 t
  refine ⟨t, flush3_2 t, ?_⟩
  rw [mem_block3]
  intro a
  match a with
  | ⟨0, _⟩ =>
    show win3_2.index t (0 : Fin 2) * 8192 ≤ (i 0).val ∧ (i 0).val < win3_2.index t (0 : Fin 2) * 8192 + 8192
    rw [e0, ht]; omega
  | ⟨1, _⟩ =>
    show win3_2.index t (1 : Fin 2) * 1 ≤ (i 1).val ∧ (i 1).val < win3_2.index t (1 : Fin 2) * 1 + 1
    rw [e1]; omega

/-- Region 3's output column after the run is `scaled3` of the two columns it reads. -/
theorem arr3_eq (c : Dev nD) : out3 V c = scaled3 (in3_s V c) (in3_x V c) :=
  (dat3 (F := Ideal) V c).arrAt_eq_of_cover 2 (scaled3 (in3_s V c) (in3_x V c))
    (fun t _ => flushed3_eq V c t) (cover3)

/-- Region 3: entry `p` of the second [3301376, 1] column times entry `p` of the first. -/
theorem arr3_apply (c : Dev nD) (p : Fin 3301376) (q : Fin 1) :
    out3 V c (ix2 p q) = in3_x V c (ix2 p q) * in3_s V c (ix2 p q) := by
  exact congrFun (arr3_eq V c) (ix2 p q)

end Cert.KernelIdeal.RegScale

end
-- ==== Proof.KRegMat.lean ====
/-
  What the two matrix-product regions leave in their output arrays, entry by entry, at the ideal instance.

  Each tiles its first operand into 20 blocks of 5000 rows, multiplies a block by the whole second operand on the matrix
  unit into a zero accumulator (the change of float format in front of the product is the identity on extended reals)
  and writes the product block back; the 20 blocks are all 100000 rows, so the output array is the matrix product of the
  two arrays: entry (p, q) is the sum over the contracted axis of the products.
-/
import proofs.«119266_j67216238182417_1_alg».proof.Proof.Gen.KernelIdeal.Frame
import proofs.«119266_j67216238182417_1_alg».proof.Proof.LibDot2
import Idealize.ShloMosaic.Lib.ValueIdx
import Idealize.ShloMosaic.Lib.Pipeline.Value

set_option maxRecDepth 16384

noncomputable section

namespace Cert.KernelIdeal.RegMat

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! The arrays a region finds and the one it leaves, each named at its literal type (extended reals over its index set). -/
abbrev in0_x (c : Dev nD) : S100000x128.Idx → EReal := V c main_arg0
abbrev in0_w (c : Dev nD) : S128x64.Idx → EReal := V c main_arg3
abbrev out0 (c : Dev nD) : S100000x64.Idx → EReal := (dat0 (F := Ideal) V c).arrAt 2 cfg0.N
abbrev in2_x (c : Dev nD) : S100000x64.Idx → EReal := V c main_v58
abbrev in2_w (c : Dev nD) : S64x1.Idx → EReal := V c main_arg5
abbrev out2 (c : Dev nD) : S100000x1.Idx → EReal := (dat2 (F := Ideal) V c).arrAt 2 cfg2.N

/-! ## Both regions: a rectangle at offset (0, 0) -/

/-- The offset vector (0, 0) is the zero function. -/
theorem off_zero : (![0, 0] : Fin 2 → Nat) = fun _ => 0 := funext fun a => by
  match a with
  | ⟨0, _⟩ => rfl
  | ⟨1, _⟩ => rfl

/-! ## Region 0 -/

/-- The block index maps over the 20 grid points: the first operand's and the output's block is (t, 0), the second
    operand's is (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! The product's dimension numbers, coordinate by coordinate: the left operand is read at (row, contracted), the right
    at (contracted, column). -/
theorem dot0_lhs0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dot0_lhs1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem dot0_rhs0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem dot0_rhs1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's value at (p, j): the change of float format is the identity on extended reals, and the product into the
    zero accumulator is the sum over the contracted axis. -/
theorem pay0_apply (x0 : Vec Ideal S5000x128 .f32) (x1 : Vec Ideal S128x64 .f32) (p : Fin 5000) (j : Fin 64) :
    k0_pay1 x0 x1 (ix2 p j) = ∑ a : Fin 128, x0 (ix2 p a) * x1 (ix2 a j) := by
  unfold k0_pay1
  exact Cert.Lib.Dot2.matmul_zero_ix2 dot_S5000x128_S128x64_S5000x64_1_0_0_1_n_n none rfl rfl dot0_lhs0 dot0_lhs1 dot0_rhs0 dot0_rhs1
    (truncf .bf16 x0 bitsLt_bf16_f32) (truncf .bf16 x1 bitsLt_bf16_f32) p j

/-- The product array: entry (p, q) is the sum over the contracted axis. -/
abbrev prod0 (x : S100000x128.Idx → EReal) (w : S128x64.Idx → EReal) : S100000x64.Idx → EReal :=
  fun i => ∑ a : Fin 128, x (ix2 ⟨(i 0).val, idx2_lt0 i⟩ a) * w (ix2 a ⟨(i 1).val, idx2_lt1 i⟩)

/-- The same at any index of the block. -/
theorem pay0_at (x0 : Vec Ideal S5000x128 .f32) (x1 : Vec Ideal S128x64 .f32) (j : S5000x64.Idx) :
    k0_pay1 x0 x1 j = ∑ a : Fin 128, x0 (ix2 ⟨(j 0).val, idx2_lt0 j⟩ a) * x1 (ix2 a ⟨(j 1).val, idx2_lt1 j⟩) :=
  (congrArg (k0_pay1 x0 x1) (eq_ix2 j)).trans (pay0_apply x0 x1 (j 0) (j 1))

/-- Point t's block of the first operand is rows 5000 t … 5000 t + 4999 of the array. -/
theorem blk0_x (c : Dev nD) (t : Fin cfg0.N) (y : S5000x128.Idx) (k : S100000x128.Idx)
    (h0 : (k 0).val = t.val * 5000 + (y 0).val) (h1 : (k 1).val = (y 1).val) :
    (iblk0 V c 0 t : Vec Ideal S5000x128 .f32) y = in0_x V c k := by
  obtain ⟨e00, e01, -⟩ := idx_facts0 t
  show V c main_arg0 (((cfg0.win 0).blk t).view.emb y) = V c main_arg0 k
  refine congrArg _ (funext fun a => Fin.ext ?_)
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- Every point's block of the second operand is the whole array. -/
theorem blk0_w (c : Dev nD) (t : Fin cfg0.N) (y : S128x64.Idx) :
    (iblk0 V c 1 t : Vec Ideal S128x64 .f32) y = in0_w V c y := by
  obtain ⟨-, -, e10, e11, -⟩ := idx_facts0 t
  show V c main_arg3 (((cfg0.win 1).blk t).view.emb y) = V c main_arg3 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- What point t writes back is block t of the product array. -/
theorem flushed0_eq (c : Dev nD) (t : Fin cfg0.N) :
    (dat0 (F := Ideal) V c).flushed 2 t = ((cfg0.win 2).blk t).view.read (Elt Ideal) (prod0 (in0_x V c) (in0_w V c)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x64) off_zero]
  obtain ⟨-, -, -, -, e20, e21⟩ := idx_facts0 t
  funext j
  show k0_pay1 (iblk0 V c 0 t) (iblk0 V c 1 t) j = prod0 (in0_x V c) (in0_w V c) (((cfg0.win 2).blk t).view.emb j)
  rw [pay0_at]
  refine Finset.sum_congr rfl fun a _ => ?_
  refine congrArg₂ (· * ·) (blk0_x V c t _ _ ?_ rfl) ((blk0_w V c t _).trans (congrArg (in0_w V c) (funext fun d => Fin.ext ?_)))
  · show win0_2.index t (0 : Fin 2) * 5000 + 1 * (j 0).val = t.val * 5000 + (j 0).val
    omega
  · match d with
    | ⟨0, _⟩ => rfl
    | ⟨1, _⟩ => show (j 1).val = win0_2.index t (1 : Fin 2) * 64 + 1 * (j 1).val; omega

/-- An index is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v17).slice (win0_2.rect t)).set ↔ _
  rw [View.set_slice_whole, Rect.mem_set_unit]
  exact Iff.rfl

/-- Row r lies in the block of point r / 5000: the 20 blocks cover the array. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, e20, e21⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- So the output array is the product array. -/
theorem arr0_eq (c : Dev nD) : out0 V c = prod0 (in0_x V c) (in0_w V c) :=
  (dat0 (F := Ideal) V c).arrAt_eq_of_cover 2 (prod0 (in0_x V c) (in0_w V c)) (fun t _ => flushed0_eq V c t) cover0

/-! ## Region 2 -/

/-- The block index maps over the 20 grid points: the first operand's and the output's block is (t, 0), the second
    operand's is (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-! The product's dimension numbers, coordinate by coordinate. -/
theorem dot2_lhs0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem dot2_lhs1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem dot2_rhs0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem dot2_rhs1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The body's value at (p, j): the cast of a shape to itself and the change of float format are the identity, and the
    product into the zero accumulator is the sum over the contracted axis. -/
theorem pay2_apply (x0 : Vec Ideal S5000x64 .f32) (x1 : Vec Ideal S64x1 .f32) (p : Fin 5000) (j : Fin 1) :
    k2_pay1 x0 x1 (ix2 p j) = ∑ a : Fin 64, x0 (ix2 p a) * x1 (ix2 a j) := by
  unfold k2_pay1
  show matmul (F := Ideal) dot_S5000x64_S64x1_S5000x1_1_0_0_1_n_n none
      (truncf (F := Ideal) .bf16 (shapeCast S5000x64 x0 shapeCasts_S5000x64_S5000x64) bitsLt_bf16_f32) (truncf (F := Ideal) .bf16 x1 bitsLt_bf16_f32)
      (constant (F := Ideal) S5000x1 .f32 0x00000000#32) (ix2 p j) = _
  rw [shapeCast_self]
  exact Cert.Lib.Dot2.matmul_zero_ix2 dot_S5000x64_S64x1_S5000x1_1_0_0_1_n_n none rfl rfl dot2_lhs0 dot2_lhs1 dot2_rhs0 dot2_rhs1
    (truncf .bf16 x0 bitsLt_bf16_f32) (truncf .bf16 x1 bitsLt_bf16_f32) p j

/-- The product array: entry (p, q) is the sum over the contracted axis. -/
abbrev prod2 (x : S100000x64.Idx → EReal) (w : S64x1.Idx → EReal) : S100000x1.Idx → EReal :=
  fun i => ∑ a : Fin 64, x (ix2 ⟨(i 0).val, idx2_lt0 i⟩ a) * w (ix2 a ⟨(i 1).val, idx2_lt1 i⟩)

/-- The same at any index of the block. -/
theorem pay2_at (x0 : Vec Ideal S5000x64 .f32) (x1 : Vec Ideal S64x1 .f32) (j : S5000x1.Idx) :
    k2_pay1 x0 x1 j = ∑ a : Fin 64, x0 (ix2 ⟨(j 0).val, idx2_lt0 j⟩ a) * x1 (ix2 a ⟨(j 1).val, idx2_lt1 j⟩) :=
  (congrArg (k2_pay1 x0 x1) (eq_ix2 j)).trans (pay2_apply x0 x1 (j 0) (j 1))

/-- Point t's block of the first operand is rows 5000 t … 5000 t + 4999 of the array. -/
theorem blk2_x (c : Dev nD) (t : Fin cfg2.N) (y : S5000x64.Idx) (k : S100000x64.Idx)
    (h0 : (k 0).val = t.val * 5000 + (y 0).val) (h1 : (k 1).val = (y 1).val) :
    (iblk2 V c 0 t : Vec Ideal S5000x64 .f32) y = in2_x V c k := by
  obtain ⟨e00, e01, -⟩ := idx_facts2 t
  show V c main_v58 (((cfg2.win 0).blk t).view.emb y) = V c main_v58 k
  refine congrArg _ (funext fun a => Fin.ext ?_)
  match a with
  | ⟨0, _⟩ => show win2_0.index t (0 : Fin 2) * 5000 + 1 * (y 0).val = (k 0).val; omega
  | ⟨1, _⟩ => show win2_0.index t (1 : Fin 2) * 64 + 1 * (y 1).val = (k 1).val; omega

/-- Every point's block of the second operand is the whole array. -/
theorem blk2_w (c : Dev nD) (t : Fin cfg2.N) (y : S64x1.Idx) :
    (iblk2 V c 1 t : Vec Ideal S64x1 .f32) y = in2_w V c y := by
  obtain ⟨-, -, e10, e11, -⟩ := idx_facts2 t
  show V c main_arg5 (((cfg2.win 1).blk t).view.emb y) = V c main_arg5 y
  refine congrArg _ (funext fun a => Fin.ext ?_)
  match a with
  | ⟨0, _⟩ => show win2_1.index t (0 : Fin 2) * 64 + 1 * (y 0).val = (y 0).val; omega
  | ⟨1, _⟩ => show win2_1.index t (1 : Fin 2) * 1 + 1 * (y 1).val = (y 1).val; omega

/-- What point t writes back is block t of the product array. -/
theorem flushed2_eq (c : Dev nD) (t : Fin cfg2.N) :
    (dat2 (F := Ideal) V c).flushed 2 t = ((cfg2.win 2).blk t).view.read (Elt Ideal) (prod2 (in2_x V c) (in2_w V c)) := by
  show (cfg2.win 2).cut (grid2.coords t) ((dat2 V c).after 2 t) = _
  rw [after2_2]
  unfold out2_2
  rw [View.canon_unit_zero off_zero]
  simp only [View.ld_unit_zero (S := S5000x64) off_zero, View.ld_unit_zero (S := S64x1) off_zero]
  obtain ⟨-, -, -, -, e20, e21⟩ := idx_facts2 t
  funext j
  show k2_pay1 (iblk2 V c 0 t) (iblk2 V c 1 t) j = prod2 (in2_x V c) (in2_w V c) (((cfg2.win 2).blk t).view.emb j)
  rw [pay2_at]
  refine Finset.sum_congr rfl fun a _ => ?_
  refine congrArg₂ (· * ·) (blk2_x V c t _ _ ?_ rfl) ((blk2_w V c t _).trans (congrArg (in2_w V c) (funext fun d => Fin.ext ?_)))
  · show win2_2.index t (0 : Fin 2) * 5000 + 1 * (j 0).val = t.val * 5000 + (j 0).val
    omega
  · match d with
    | ⟨0, _⟩ => rfl
    | ⟨1, _⟩ => show (j 1).val = win2_2.index t (1 : Fin 2) * 1 + 1 * (j 1).val; omega

/-- An index is in point t's block iff each coordinate is in the block's range on its axis. -/
theorem mem_blk2 (t : Fin cfg2.N) (i : S100000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v59).slice (win2_2.rect t)).set ↔ _
  rw [View.set_slice_whole, Rect.mem_set_unit]
  exact Iff.rfl

/-- Row r lies in the block of point r / 5000: the 20 blocks cover the array. -/
theorem cover2 (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨-, -, -, -, e20, e21⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 1 ≤ (i 1).val ∧ (i 1).val < win2_2.index t (1 : Fin 2) * 1 + 1; omega

/-- So the output array is the product array. -/
theorem arr2_eq (c : Dev nD) : out2 V c = prod2 (in2_x V c) (in2_w V c) :=
  (dat2 (F := Ideal) V c).arrAt_eq_of_cover 2 (prod2 (in2_x V c) (in2_w V c)) (fun t _ => flushed2_eq V c t) cover2

/-! ## The two statements -/

/-- Region 0: the [100000, 64] product of the [100000, 128] array and the [128, 64] array. -/
theorem arr0_apply (c : Dev nD) (p : Fin 100000) (q : Fin 64) :
    out0 V c (ix2 p q) = ∑ a : Fin 128, in0_x V c (ix2 p a) * in0_w V c (ix2 a q) :=
  congrFun (arr0_eq V c) (ix2 p q)

/-- Region 2: the [100000, 1] product of the [100000, 64] array and the [64, 1] array. -/
theorem arr2_apply (c : Dev nD) (p : Fin 100000) (q : Fin 1) :
    out2 V c (ix2 p q) = ∑ a : Fin 64, in2_x V c (ix2 p a) * in2_w V c (ix2 a q) :=
  congrFun (arr2_eq V c) (ix2 p q)

end Cert.KernelIdeal.RegMat

end
-- ==== Proof.KXw.lean ====
/-
  The two matrix-product regions against the reference's two matrix products.

  Region 0 finds the arguments x and W1 as launched (nothing before it writes an argument) and leaves in its output
  array the product the reference computes on the host as one `dot_general`: at the ideal instance both are, entry by
  entry, the sum over the contracted axis of the products. Region 2 does the same for the hidden features and W2, once
  the hidden features it finds are the reference's.
-/
import proofs.«119266_j67216238182417_1_alg».proof.Proof.Gen.KernelIdeal.Frame
import proofs.«119266_j67216238182417_1_alg».proof.Proof.Gen.ReferenceIdeal.Read
import proofs.«119266_j67216238182417_1_alg».proof.Proof.KRegMat
import proofs.«119266_j67216238182417_1_alg».proof.Proof.Kept

set_option maxRecDepth 16384

noncomputable section

namespace Cert.KernelIdeal.KXw

open Cert.KernelIdeal Cert.KernelIdeal.Gen Idealize.ShloMosaic Idealize.ShloMosaic.TcCoe Idealize.ShloMosaic.StableHlo
open Idealize.ShloMosaic.ValueIdx
open Cert.ReferenceIdeal.Read (val_main_v9 val_main_v51 val_main_v52)

variable (m : (ℓ : Loc nD τ sig) → Buf (Elt Ideal) ℓ) (ρ : Dev nD → PrngReg) (c : Dev nD)

/-- After region 0 its output array holds the reference's first product `x @ W1`. -/
theorem xw1 :
    (W2 m ρ c (Proc.devRef .tc main_v17) : S100000x64.Idx → EReal)
      = val_main_v9 (F := Ideal) (m ((c : Thread nD τ).loc main_arg0)) (m ((c : Thread nD τ).loc main_arg3)) := by
  refine funext fun (i : S100000x64.Idx) => ?_
  obtain ⟨p, q, rfl⟩ : ∃ (p : Fin 100000) (q : Fin 64), i = ix2 p q := ⟨i 0, i 1, eq_ix2 i⟩
  have hl : (W2 m ρ c (Proc.devRef .tc main_v17) : S100000x64.Idx → EReal) = RegMat.out0 (V1 m ρ) c :=
    W2_arr m ρ c 2
  have hx : RegMat.in0_x (V1 m ρ) c = m ((c : Thread nD τ).loc main_arg0) := Kept.W1_arg0 m ρ c
  have hw : RegMat.in0_w (V1 m ρ) c = m ((c : Thread nD τ).loc main_arg3) := Kept.W1_arg3 m ρ c
  have el : ∀ k : Fin 128, Cert.ReferenceIdeal.Read.lidx_main_v9 (ix2 p q) k = ix2 p k := fun k =>
    funext fun a => match a with | ⟨0, _⟩ => rfl | ⟨1, _⟩ => rfl
  have er : ∀ k : Fin 128, Cert.ReferenceIdeal.Read.ridx_main_v9 (ix2 p q) k = ix2 k q := fun k =>
    funext fun a => match a with | ⟨0, _⟩ => rfl | ⟨1, _⟩ => rfl
  rw [hl, RegMat.arr0_apply (V1 m ρ) c p q, Cert.ReferenceIdeal.Read.val_main_v9_apply, hx, hw]
  simp only [el, er]

/-- After region 2 its output array holds the reference's second product `h @ W2`, given that the hidden features the
    region finds are the reference's. -/
theorem xw2
    (hh : (W8 m ρ c (Proc.devRef .tc main_v58) : S100000x64.Idx → EReal)
      = val_main_v51 (F := Ideal) (m ((c : Thread nD τ).loc main_arg0)) (m ((c : Thread nD τ).loc main_arg1))
          (m ((c : Thread nD τ).loc main_arg2)) (m ((c : Thread nD τ).loc main_arg3)) (m ((c : Thread nD τ).loc main_arg4))) :
    (W9 m ρ c (Proc.devRef .tc main_v59) : S100000x1.Idx → EReal)
      = val_main_v52 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine funext fun (i : S100000x1.Idx) => ?_
  obtain ⟨p, q, rfl⟩ : ∃ (p : Fin 100000) (q : Fin 1), i = ix2 p q := ⟨i 0, i 1, eq_ix2 i⟩
  rw [Cert.ReferenceIdeal.Read.val_main_v52_apply]
  generalize val_main_v51 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = y at hh ⊢
  have hl : (W9 m ρ c (Proc.devRef .tc main_v59) : S100000x1.Idx → EReal) = RegMat.out2 (V8 m ρ) c :=
    W9_arr m ρ c 2
  have hx : RegMat.in2_x (V8 m ρ) c = y := hh
  have hw : RegMat.in2_w (V8 m ρ) c = m ((c : Thread nD τ).loc main_arg5) := Kept.W8_arg5 m ρ c
  have el : ∀ k : Fin 64, Cert.ReferenceIdeal.Read.lidx_main_v52 (ix2 p q) k = ix2 p k := fun k =>
    funext fun a => match a with | ⟨0, _⟩ => rfl | ⟨1, _⟩ => rfl
  have er : ∀ k : Fin 64, Cert.ReferenceIdeal.Read.ridx_main_v52 (ix2 p q) k = ix2 k q := fun k =>
    funext fun a => match a with | ⟨0, _⟩ => rfl | ⟨1, _⟩ => rfl
  rw [hl, RegMat.arr2_apply (V8 m ρ) c p q, hx, hw]
  simp only [el, er]

end Cert.KernelIdeal.KXw

end
-- ==== Proof.K1.lean ====
/-
  The first layer's edge normalisation and gathered rows, as region 1 finds them.

  Between region 0 and region 1 the kernel program computes, over its 3301376 rows, the in-degrees (a segment sum of
  the weights), their inverse square roots, the edge normalisation `dinv[src] * w * dinv[dst]` (reshaped to a column)
  and the rows `xw[src]` of the first region's product. The in-degrees equal the reference's (the padding rows land
  nowhere), so the two tables `dinv` are equal, and then the normalisation column and the gathered rows continue the
  reference's, row by row.
-/
import proofs.«119266_j67216238182417_1_alg».proof.Proof.Gen.KernelIdeal.Frame
import proofs.«119266_j67216238182417_1_alg».proof.Proof.Gen.ReferenceIdeal.Read
import proofs.«119266_j67216238182417_1_alg».proof.Proof.LibPad
import proofs.«119266_j67216238182417_1_alg».proof.Proof.NormCore
import proofs.«119266_j67216238182417_1_alg».proof.Proof.K0
import proofs.«119266_j67216238182417_1_alg».proof.Proof.Kept
import proofs.«119266_j67216238182417_1_alg».proof.Proof.KXw
import Idealize.ShloMosaic.Lib.StableHlo.Run

set_option maxRecDepth 16384

noncomputable section

namespace Cert.KernelIdeal.K1

open Cert.KernelIdeal Cert.KernelIdeal.Gen Idealize.ShloMosaic Idealize.ShloMosaic.TcCoe Idealize.ShloMosaic.StableHlo
open Idealize.ShloMosaic.ValueIdx Cert.Lib.Pad
open Cert.ReferenceIdeal.Read (val_main_v3 val_main_v6 val_main_v8 val_main_v9 val_main_v12 val_main_v18 val_main_v34 val_main_v35 val_main_v42)

variable (m : (ℓ : Loc nD τ sig) → Buf (Elt Ideal) ℓ) (ρ : Dev nD → PrngReg) (c : Dev nD)

-- the arguments as launched, by position
set_option quotPrecheck false
-- the arguments as launched, by position
set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)

/-! ## The table `dinv`: two spellings of one function of the in-degrees -/

/-- `dinv = where(deg > 0, rsqrt(max(deg, 1e-12)), 0)` as plain operations. -/
def dinvOf (deg : S100000.Idx → EReal) : S100000.Idx → EReal :=
  select (cmpf (F := Ideal) .ogt deg (broadcastInDim S100000 ![] bcast_S_S100000 (constant (F := Ideal) S_ .f32 0x00000000#32)))
    (Host.rsqrt (F := Ideal) (maximumf (F := Ideal) deg (broadcastInDim S100000 ![] bcast_S_S100000 (constant (F := Ideal) S_ .f32 0x2B8CBCCC#32))))
    (broadcastInDim S100000 ![] bcast_S_S100000 (constant (F := Ideal) S_ .f32 0x00000000#32))

/-- The kernel program's spelling of `dinv` (the `where` is an outlined function: its operations move their operands
    to and from its own buffers' types, which are the same types). -/
def dinvK1 (deg : S100000.Idx → EReal) : S100000.Idx → EReal :=
  (.of main_v26 : StableHlo.TRef sig ⟨S100000, .f32⟩).toBuf (Val := Elt Ideal)
    (select
      ((.of main_v22 : StableHlo.TRef sig ⟨S100000, .i1⟩).ofBuf (Val := Elt Ideal)
        (cmpf (F := Ideal) .ogt deg (broadcastInDim S100000 ![] bcast_S_S100000 (constant (F := Ideal) S_ .f32 0x00000000#32))))
      ((.of main_v25 : StableHlo.TRef sig ⟨S100000, .f32⟩).ofBuf (Val := Elt Ideal)
        (Host.rsqrt (F := Ideal) (maximumf (F := Ideal) deg (broadcastInDim S100000 ![] bcast_S_S100000 (constant (F := Ideal) S_ .f32 0x2B8CBCCC#32)))))
      ((.of main_call0_v1 : StableHlo.TRef sig ⟨S100000, .f32⟩).ofBuf (Val := Elt Ideal)
        ((.of main_call0_v1 : StableHlo.TRef sig ⟨S100000, .f32⟩).toBuf (Val := Elt Ideal)
          (broadcastInDim S100000 ![] bcast_S_S100000
            ((.of main_call0_v0 : StableHlo.TRef sig ⟨S_, .f32⟩).ofBuf (Val := Elt Ideal)
              ((.of main_call0_v0 : StableHlo.TRef sig ⟨S_, .f32⟩).toBuf (Val := Elt Ideal)
                (id ((.of main_cst_6 : StableHlo.TRef sig ⟨S_, .f32⟩).ofBuf (Val := Elt Ideal) (constant (F := Ideal) S_ .f32 0x00000000#32)))))))))

/-- The moves to and from the outlined function's buffers are along `rfl`: they change nothing. -/
theorem dinvK1_eq (deg : S100000.Idx → EReal) : dinvK1 deg = dinvOf deg := rfl

/-- The reference's `dinv` is that function of the reference's in-degrees. -/
theorem dinv_ref1 (a1 : S2x3200000.Idx → BitVec 32) (a2 : S3200000.Idx → EReal) :
    val_main_v18 (F := Ideal) a1 a2 = dinvOf (val_main_v12 (F := Ideal) a1 a2) := rfl

/-! ## What region 1 finds -/

/-- The kernel program's in-degrees are the reference's: the padding rows' destination is out of range. -/
theorem deg1 :
    Host.scatterAdd (F := Ideal) scatter_S100000_S3301376x1_S3301376_n_0_0_1
        (broadcastInDim S100000 ![] bcast_S_S100000 (constant S_ .f32 0x00000000#32))
        (broadcastInDim S3301376x1 ![0] bcast_S3301376_S3301376x1_0 (W1 m ρ c (Proc.devRef .tc main_v12)))
        (W1 m ρ c (Proc.devRef .tc main_v14))
      = val_main_v12 (F := Ideal) x1 x2 :=
  NormCore.deg_eq (K0.dst_ext m ρ c) (K0.dst_pad m ρ c) (K0.ew_ext m ρ c)

set_option maxHeartbeats 4000000 in
/-- The normalisation column region 1 reads continues the reference's normalisation, laid out as a column: the stretch
    is read back to the four edge lists, the in-degrees are replaced by the reference's, the table `dinv` is then the reference's, and
    each factor of the normalisation continues the reference's factor. -/
theorem norm1 : Ext2 K0.hE (val_main_v35 (F := Ideal) x1 x2) (W5 m ρ c (Proc.devRef .tc main_v50)) := by
  show Ext2 K0.hE _ (StableHlo.after hostOps1_2 (StableHlo.after hostOps1_1 (StableHlo.after hostOps1 (W2 m ρ c)))
    (Proc.devRef .tc main_v50))
  after_results_simp
  rw [Kept.W2_v10, Kept.W2_v12, Kept.W2_v14, Kept.W2_v16, deg1 m ρ c]
  refine ext2_col_reshape K0.hE _ _ ?_
  refine ext1_mulf (φ := .f32) K0.hE (ext1_mulf (φ := .f32) K0.hE ?_ (K0.ew_ext m ρ c)) ?_
  · -- dinv at the sources
    show Ext1 K0.hE _ (Host.gather gather_S100000_S3301376x1_S3301376_n_0_n_n_0_1_1
      (dinvK1 (val_main_v12 (F := Ideal) x1 x2)) _)
    rw [dinvK1_eq, ← dinv_ref1]
    exact NormCore.take1_ext _ (K0.src_ext m ρ c)
  · -- dinv at the destinations, capped at 99999 in the kernel program
    show Ext1 K0.hE _ (Host.gather gather_S100000_S3301376x1_S3301376_n_0_n_n_0_1_1
      (dinvK1 (val_main_v12 (F := Ideal) x1 x2)) _)
    rw [dinvK1_eq, ← dinv_ref1]
    exact NormCore.take1_capped _ (K0.dst_ext m ρ c) (K0.dstC_apply m ρ c)

set_option maxHeartbeats 4000000 in
/-- The gathered rows region 1 reads continue the reference's rows `xw[src]`: the table is region 0's product, which is
    the reference's, and the start indices are the normalised sources. -/
theorem rows1 : Ext2 K0.hE (val_main_v42 (F := Ideal) x0 x1 x3) (W5 m ρ c (Proc.devRef .tc main_v49)) := by
  show Ext2 K0.hE _ (StableHlo.after hostOps1_2 (StableHlo.after hostOps1_1 (StableHlo.after hostOps1 (W2 m ρ c)))
    (Proc.devRef .tc main_v49))
  after_results_simp
  rw [Kept.W2_v10, KXw.xw1 m ρ c]
  exact NormCore.rows64_ext _ (K0.src_ext m ρ c)

end Cert.KernelIdeal.K1

end
-- ==== Proof.K2.lean ====
/-
  The hidden features, as region 2 finds them, are the reference's.

  Region 1 scales each gathered row by its normalisation; the rows it writes continue the reference's scaled rows
  (a product of the same two numbers, in the other order). Their segment sum over the destinations is the reference's
  (the padding rows land nowhere), and the bias and the rectifier are the same operations in both programs.
-/
import proofs.«119266_j67216238182417_1_alg».proof.Proof.Gen.KernelIdeal.Frame
import proofs.«119266_j67216238182417_1_alg».proof.Proof.Gen.ReferenceIdeal.Read
import proofs.«119266_j67216238182417_1_alg».proof.Proof.LibPad
import proofs.«119266_j67216238182417_1_alg».proof.Proof.NormCore
import proofs.«119266_j67216238182417_1_alg».proof.Proof.K0
import proofs.«119266_j67216238182417_1_alg».proof.Proof.Kept
import proofs.«119266_j67216238182417_1_alg».proof.Proof.KRegScale
import proofs.«119266_j67216238182417_1_alg».proof.Proof.K1
import Idealize.ShloMosaic.Lib.StableHlo.Run

set_option maxRecDepth 16384

noncomputable section

namespace Cert.KernelIdeal.K2

open Cert.KernelIdeal Cert.KernelIdeal.Gen Idealize.ShloMosaic Idealize.ShloMosaic.TcCoe Idealize.ShloMosaic.StableHlo
open Idealize.ShloMosaic.ValueIdx Cert.Lib.Pad
open Cert.ReferenceIdeal.Read (val_main_v6 val_main_v35 val_main_v42 val_main_v43 val_main_v44 val_main_v47 val_main_v50 val_main_v51)

variable (m : (ℓ : Loc nD τ sig) → Buf (Elt Ideal) ℓ) (ρ : Dev nD → PrngReg) (c : Dev nD)

-- the arguments as launched, by position
set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)

/-- The reference broadcasts the normalisation column along a row: entry (p, q) reads the column's entry (p, 0). -/
theorem idx43 (p : Fin 3300000) (q : Fin 64) :
    Cert.ReferenceIdeal.Read.idx_main_v43 (ix2 p q) = ix2 p (0 : Fin 1) :=
  funext fun a => match a with | ⟨0, _⟩ => rfl | ⟨1, _⟩ => rfl

/-- What region 1 leaves continues the reference's scaled rows `norm[:, None] * xw[src]`. -/
theorem scaled1 :
    Ext2 K0.hE (val_main_v44 (F := Ideal) x0 x1 x2 x3) (W6 m ρ c (Proc.devRef .tc main_v51)) := by
  intro p q
  -- the left side is region 1's output array: a row of the gathered rows times its entry of the column
  show W6 m ρ c (Proc.devRef .tc (Pipeline.arrRef spec1 2)) (ix2 (Fin.castLE K0.hE p) q) = _
  rw [W6_arr m ρ c 2]
  refine (RegScale.arr1_apply (V5 m ρ) c (Fin.castLE K0.hE p) q).trans ?_
  -- the right side is the reference's product of the broadcast column and the rows
  rw [Cert.ReferenceIdeal.Read.val_main_v44_apply, Cert.ReferenceIdeal.Read.val_main_v43_apply, idx43]
  have hx : RegScale.in1_x (V5 m ρ) c (ix2 (Fin.castLE K0.hE p) q) = val_main_v42 (F := Ideal) x0 x1 x3 (ix2 p q) :=
    K1.rows1 m ρ c p q
  have hs : RegScale.in1_s (V5 m ρ) c (ix2 (Fin.castLE K0.hE p) (0 : Fin 1)) = val_main_v35 (F := Ideal) x1 x2 (ix2 p (0 : Fin 1)) :=
    K1.norm1 m ρ c p 0
  rw [hx, hs]
  -- the same two numbers multiplied in the two orders
  exact mul_comm _ _

/-! The contents of a buffer of a called function at the value's type are the buffer's contents. -/
theorem toBuf_v58 (v : (⟨S100000x64, .f32⟩ : BufTy).Contents (Elt Ideal)) :
    (StableHlo.TRef.of main_v58 : StableHlo.TRef sig ⟨S100000x64, .f32⟩).toBuf v = v := rfl
theorem ofBuf_v57 (v : (⟨S100000x64, .f32⟩ : BufTy).Contents (Elt Ideal)) :
    (StableHlo.TRef.of main_v57 : StableHlo.TRef sig ⟨S100000x64, .f32⟩).ofBuf v = v := rfl
theorem toBuf_call1_v0 (v : (⟨S100000x64, .f32⟩ : BufTy).Contents (Elt Ideal)) :
    (StableHlo.TRef.of main_call1_v0 : StableHlo.TRef sig ⟨S100000x64, .f32⟩).toBuf v = v := rfl
theorem ofBuf_call1_v0 (v : (⟨S100000x64, .f32⟩ : BufTy).Contents (Elt Ideal)) :
    (StableHlo.TRef.of main_call1_v0 : StableHlo.TRef sig ⟨S100000x64, .f32⟩).ofBuf v = v := rfl
theorem toBuf_call1_cst (v : (⟨S_, .f32⟩ : BufTy).Contents (Elt Ideal)) :
    (StableHlo.TRef.of main_call1_cst : StableHlo.TRef sig ⟨S_, .f32⟩).toBuf v = v := rfl
theorem ofBuf_call1_cst (v : (⟨S_, .f32⟩ : BufTy).Contents (Elt Ideal)) :
    (StableHlo.TRef.of main_call1_cst : StableHlo.TRef sig ⟨S_, .f32⟩).ofBuf v = v := rfl

/-- The hidden features region 2 reads are the reference's `relu(segment_sum(...) + b1)`. -/
theorem hid :
    (W8 m ρ c (Proc.devRef .tc main_v58) : S100000x64.Idx → EReal) = val_main_v51 (F := Ideal) x0 x1 x2 x3 x4 := by
  -- the two host stretches between region 1 and region 2, read back to what region 1 left
  show (StableHlo.after hostOps2_1 (StableHlo.after hostOps2 (W6 m ρ c)) (Proc.devRef .tc main_v58) : S100000x64.Idx → EReal) = _
  after_results
  rw [Kept.W6_v12, Kept.W6_arg4]
  -- the segment sum of region 1's rows over the padded destinations is the reference's
  have h : Host.scatterAdd (F := Ideal) (φ := .f32) scatter_S100000x64_S3301376x1_S3301376x64_1_0_0_1
      (broadcastInDim S100000x64 ![] bcast_S_S100000x64 (constant S_ .f32 0x00000000#32))
      (broadcastInDim S3301376x1 ![0] bcast_S3301376_S3301376x1_0 (W1 m ρ c (Proc.devRef .tc main_v12)))
      (W6 m ρ c (Proc.devRef .tc main_v51)) = val_main_v47 (F := Ideal) x0 x1 x2 x3 :=
    NormCore.sum64_eq (K0.dst_ext m ρ c) (K0.dst_pad m ρ c) (scaled1 m ρ c)
  rw [h]
  rw [toBuf_v58, ofBuf_v57, ofBuf_call1_v0, toBuf_call1_v0, ofBuf_call1_cst, toBuf_call1_cst]
  -- the bias broadcast, the sum and the rectifier are the same operations in both programs
  unfold val_main_v51 val_main_v50
  refine congrArg₂ maximumf (congrArg (addf _) ?_) ?_
  · rfl
  · rfl

end Cert.KernelIdeal.K2

end
-- ==== Proof.K3.lean ====
/-
  The second layer's edge normalisation and gathered rows, as region 3 finds them.

  Between region 2 and region 3 the kernel program computes the in-degrees, their inverse square roots and the edge
  normalisation once more, from the same edge lists (which no region or host operation has written since), and the
  rows `hw[src]` of the second region's product, which is the reference's. As in the first layer the normalisation
  column and the gathered rows continue the reference's, row by row.
-/
import proofs.«119266_j67216238182417_1_alg».proof.Proof.Gen.KernelIdeal.Frame
import proofs.«119266_j67216238182417_1_alg».proof.Proof.Gen.ReferenceIdeal.Read
import proofs.«119266_j67216238182417_1_alg».proof.Proof.LibPad
import proofs.«119266_j67216238182417_1_alg».proof.Proof.NormCore
import proofs.«119266_j67216238182417_1_alg».proof.Proof.K0
import proofs.«119266_j67216238182417_1_alg».proof.Proof.Kept
import proofs.«119266_j67216238182417_1_alg».proof.Proof.KXw
import proofs.«119266_j67216238182417_1_alg».proof.Proof.K1
import proofs.«119266_j67216238182417_1_alg».proof.Proof.K2
import Idealize.ShloMosaic.Lib.StableHlo.Run

set_option maxRecDepth 16384

noncomputable section

namespace Cert.KernelIdeal.K3

open Cert.KernelIdeal Cert.KernelIdeal.Gen Idealize.ShloMosaic Idealize.ShloMosaic.TcCoe Idealize.ShloMosaic.StableHlo
open Idealize.ShloMosaic.ValueIdx Cert.Lib.Pad
open Cert.ReferenceIdeal.Read (val_main_v3 val_main_v6 val_main_v8 val_main_v52 val_main_v55 val_main_v61 val_main_v77 val_main_v78 val_main_v85)

variable (m : (ℓ : Loc nD τ sig) → Buf (Elt Ideal) ℓ) (ρ : Dev nD → PrngReg) (c : Dev nD)

-- the arguments as launched, by position
set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)

/-! ## The table `dinv` at the second call site -/

/-- The kernel program's spelling of `dinv` in this stretch (the `where` is an outlined function, called a second time
    here: its operations move their operands to and from this call's own buffers' types, which are the same types). -/
def dinvK2 (deg : S100000.Idx → EReal) : S100000.Idx → EReal :=
  (.of main_v68 : StableHlo.TRef sig ⟨S100000, .f32⟩).toBuf (Val := Elt Ideal)
    (select
      ((.of main_v64 : StableHlo.TRef sig ⟨S100000, .i1⟩).ofBuf (Val := Elt Ideal)
        (cmpf (F := Ideal) .ogt deg (broadcastInDim S100000 ![] bcast_S_S100000 (constant (F := Ideal) S_ .f32 0x00000000#32))))
      ((.of main_v67 : StableHlo.TRef sig ⟨S100000, .f32⟩).ofBuf (Val := Elt Ideal)
        (Host.rsqrt (F := Ideal) (maximumf (F := Ideal) deg (broadcastInDim S100000 ![] bcast_S_S100000 (constant (F := Ideal) S_ .f32 0x2B8CBCCC#32)))))
      ((.of main_call2_v1 : StableHlo.TRef sig ⟨S100000, .f32⟩).ofBuf (Val := Elt Ideal)
        ((.of main_call2_v1 : StableHlo.TRef sig ⟨S100000, .f32⟩).toBuf (Val := Elt Ideal)
          (broadcastInDim S100000 ![] bcast_S_S100000
            ((.of main_call2_v0 : StableHlo.TRef sig ⟨S_, .f32⟩).ofBuf (Val := Elt Ideal)
              ((.of main_call2_v0 : StableHlo.TRef sig ⟨S_, .f32⟩).toBuf (Val := Elt Ideal)
                (id ((.of main_cst_17 : StableHlo.TRef sig ⟨S_, .f32⟩).ofBuf (Val := Elt Ideal) (constant (F := Ideal) S_ .f32 0x00000000#32)))))))))

/-- The moves to and from the outlined function's buffers are along `rfl`: they change nothing, and the function of the
    in-degrees is the first layer's. -/
theorem dinvK2_eq (deg : S100000.Idx → EReal) : dinvK2 deg = K1.dinvOf deg := rfl

/-- The reference's second `dinv` is that function of the reference's second in-degrees. -/
theorem dinv_ref2 (a1 : S2x3200000.Idx → BitVec 32) (a2 : S3200000.Idx → EReal) :
    val_main_v61 (F := Ideal) a1 a2 = K1.dinvOf (val_main_v55 (F := Ideal) a1 a2) := rfl

/-! ## What region 3 finds -/

/-- The kernel program's in-degrees, computed once more from the same lists, are the reference's: the padding rows'
    destination is out of range. -/
theorem deg2 :
    Host.scatterAdd (F := Ideal) scatter_S100000_S3301376x1_S3301376_n_0_0_1
        (broadcastInDim S100000 ![] bcast_S_S100000 (constant S_ .f32 0x00000000#32))
        (broadcastInDim S3301376x1 ![0] bcast_S3301376_S3301376x1_0 (W1 m ρ c (Proc.devRef .tc main_v12)))
        (W1 m ρ c (Proc.devRef .tc main_v14))
      = val_main_v55 (F := Ideal) x1 x2 :=
  NormCore.deg_eq (K0.dst_ext m ρ c) (K0.dst_pad m ρ c) (K0.ew_ext m ρ c)

set_option maxHeartbeats 4000000 in
/-- The normalisation column region 3 reads continues the reference's normalisation, laid out as a column: the stretch
    is read back to the four edge lists (unwritten since the first region), the in-degrees are replaced by the
    reference's, the table `dinv` is then the reference's, and each factor of the normalisation continues the
    reference's factor. -/
theorem norm2 : Ext2 K0.hE (val_main_v78 (F := Ideal) x1 x2) (W12 m ρ c (Proc.devRef .tc main_v92)) := by
  show Ext2 K0.hE _ (StableHlo.after hostOps3_2 (StableHlo.after hostOps3_1 (StableHlo.after hostOps3 (W9 m ρ c)))
    (Proc.devRef .tc main_v92))
  after_results_simp
  rw [Kept.W9_v10, Kept.W9_v12, Kept.W9_v14, Kept.W9_v16, deg2 m ρ c]
  refine ext2_col_reshape K0.hE _ _ ?_
  refine ext1_mulf (φ := .f32) K0.hE (ext1_mulf (φ := .f32) K0.hE ?_ (K0.ew_ext m ρ c)) ?_
  · -- dinv at the sources
    show Ext1 K0.hE _ (Host.gather gather_S100000_S3301376x1_S3301376_n_0_n_n_0_1_1
      (dinvK2 (val_main_v55 (F := Ideal) x1 x2)) _)
    rw [dinvK2_eq, ← dinv_ref2]
    exact NormCore.take1_ext _ (K0.src_ext m ρ c)
  · -- dinv at the destinations, capped at 99999 in the kernel program
    show Ext1 K0.hE _ (Host.gather gather_S100000_S3301376x1_S3301376_n_0_n_n_0_1_1
      (dinvK2 (val_main_v55 (F := Ideal) x1 x2)) _)
    rw [dinvK2_eq, ← dinv_ref2]
    exact NormCore.take1_capped _ (K0.dst_ext m ρ c) (K0.dstC_apply m ρ c)

set_option maxHeartbeats 4000000 in
/-- The gathered rows region 3 reads continue the reference's rows `hw[src]`: the table is region 2's product, which is
    the reference's second product (the hidden features region 2 finds being the reference's), and the start indices
    are the normalised sources. -/
theorem rows2 : Ext2 K0.hE (val_main_v85 (F := Ideal) x0 x1 x2 x3 x4 x5) (W12 m ρ c (Proc.devRef .tc main_v91)) := by
  show Ext2 K0.hE _ (StableHlo.after hostOps3_2 (StableHlo.after hostOps3_1 (StableHlo.after hostOps3 (W9 m ρ c)))
    (Proc.devRef .tc main_v91))
  after_results_simp
  rw [Kept.W9_v10, KXw.xw2 m ρ c (K2.hid m ρ c)]
  exact NormCore.rows1_ext _ (K0.src_ext m ρ c)

end Cert.KernelIdeal.K3

end
-- ==== Proof.K4.lean ====
/-
  The kernel program's result is the reference's.

  Region 3 scales each gathered row (of width one) by its normalisation; what it writes continues the reference's
  scaled rows. Their segment sum over the destinations is the reference's (the padding rows land nowhere), and the
  last bias is the same operation in both programs.
-/
import proofs.«119266_j67216238182417_1_alg».proof.Proof.Gen.KernelIdeal.Frame
import proofs.«119266_j67216238182417_1_alg».proof.Proof.Gen.ReferenceIdeal.Read
import proofs.«119266_j67216238182417_1_alg».proof.Proof.LibPad
import proofs.«119266_j67216238182417_1_alg».proof.Proof.NormCore
import proofs.«119266_j67216238182417_1_alg».proof.Proof.K0
import proofs.«119266_j67216238182417_1_alg».proof.Proof.Kept
import proofs.«119266_j67216238182417_1_alg».proof.Proof.KRegScale
import proofs.«119266_j67216238182417_1_alg».proof.Proof.K3
import Idealize.ShloMosaic.Lib.StableHlo.Run

set_option maxRecDepth 16384

noncomputable section

namespace Cert.KernelIdeal.K4

open Cert.KernelIdeal Cert.KernelIdeal.Gen Idealize.ShloMosaic Idealize.ShloMosaic.TcCoe Idealize.ShloMosaic.StableHlo
open Idealize.ShloMosaic.ValueIdx Cert.Lib.Pad
open Cert.ReferenceIdeal.Read (val_main_v6 val_main_v78 val_main_v85 val_main_v86 val_main_v89 val_main_v92)

variable (m : (ℓ : Loc nD τ sig) → Buf (Elt Ideal) ℓ) (ρ : Dev nD → PrngReg) (c : Dev nD)

-- the arguments as launched, by position
set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)

/-- What region 3 leaves continues the reference's scaled rows of the second layer. -/
theorem scaled2 :
    Ext2 K0.hE (val_main_v86 (F := Ideal) x0 x1 x2 x3 x4 x5) (W13 m ρ c (Proc.devRef .tc main_v93)) := by
  intro p q
  -- the array is region 3's output, which is the product of the two columns the region reads, row by row
  show W13 m ρ c (Proc.devRef .tc (Pipeline.arrRef spec3 2)) (ix2 (Fin.castLE K0.hE p) q) = _
  rw [W13_arr m ρ c 2]
  refine (RegScale.arr3_apply (V12 m ρ) c (Fin.castLE K0.hE p) q).trans ?_
  -- the two columns continue the reference's rows and normalisation; the reference multiplies them in the other order
  rw [Cert.ReferenceIdeal.Read.val_main_v86_apply,
    show RegScale.in3_x (V12 m ρ) c (ix2 (Fin.castLE K0.hE p) q) = _ from K3.rows2 m ρ c p q,
    show RegScale.in3_s (V12 m ρ) c (ix2 (Fin.castLE K0.hE p) q) = _ from K3.norm2 m ρ c p q]
  exact mul_comm _ _

/-- The result array at the last segment boundary is the reference's result. -/
theorem out :
    (W14 m ρ c (Proc.devRef .tc main_v99) : S100000x1.Idx → EReal) = val_main_v92 (F := Ideal) x0 x1 x2 x3 x4 x5 x6 := by
  -- the last stretch of host operations, read back from region 3's exit
  show (StableHlo.after hostOps4 (W13 m ρ c) (Proc.devRef .tc main_v99) : S100000x1.Idx → EReal) = _
  after_results
  -- the destinations and the bias are as launched
  rw [Kept.W13_v12, Kept.W13_arg6]
  -- the segment sum over the padded rows is the reference's over its own
  have h : Host.scatterAdd (F := Ideal) (φ := .f32) scatter_S100000x1_S3301376x1_S3301376x1_1_0_0_1
        (broadcastInDim S100000x1 ![] bcast_S_S100000x1 (constant S_ .f32 0x00000000#32))
        (broadcastInDim S3301376x1 ![0] bcast_S3301376_S3301376x1_0 (W1 m ρ c (Proc.devRef .tc main_v12)))
        (W13 m ρ c (Proc.devRef .tc main_v93))
      = NormCore.sum1R (val_main_v6 (F := Ideal) x1) (val_main_v86 (F := Ideal) x0 x1 x2 x3 x4 x5) :=
    NormCore.sum1_eq (K0.dst_ext m ρ c) (K0.dst_pad m ρ c) (scaled2 m ρ c)
  rw [h]
  -- the bias is broadcast and added by the same operations in both programs
  rfl

end Cert.KernelIdeal.K4

end
-- ==== Proof.lean ====
/-
  A two-layer graph convolution (PyG's GCNConv with self loops and symmetric normalisation, 100000 nodes, 3200000
  given edges), kernel program against its jnp reference, over the extended reals.

  The reference computes, per layer, `xw = x @ W`, the in-degrees `deg = segment_sum(w, dst)`,
  `dinv = where(deg > 0, rsqrt(max(deg, 1e-12)), 0)`, the edge normalisation `norm = dinv[src] * w * dinv[dst]` and
  `segment_sum(norm[:, None] * xw[src], dst) + b`, with a rectifier between the layers.

  The kernel program differs in four ways, none of which changes a value at the ideal instance:
  * the two products `x @ W` run on the matrix unit, 5000 rows at a time, after a change of float format that is the
    identity on extended reals; a product into a zero accumulator is the same sum the host's `dot_general` is;
  * the edge lists are padded from 3300000 to 3301376 = 403 × 8192 rows (source 0, destination 100000, weight 0), so
    everything computed per edge continues the reference's on the first 3300000 rows, and every segment sum drops the
    padding rows: their destination, 100000, is one past the last node, and an update out of range lands nowhere;
  * the take `dinv[dst]` reads at the destinations capped at 99999, which are the rows the reference's take reads
    (the take clamps its start index into the table anyway);
  * `norm[:, None] * xw[src]` runs as a kernel, 8192 rows at a time, with the factors in the other order.
  So the two programs' results are equal index by index (Proof/K0 … K4, over Proof/NormCore), and no precondition is
  used. The three frames are the generated ones (the reference's is its generated run with the result dropped); the
  kernel program's run with its result named is the launch theorem called again over the generated segments
  (Proof/KRun); nothing is rewritten by the ideal pass, so `preserves` is trivial.
-/
import proofs.«119266_j67216238182417_1_alg».proof.Defs
import proofs.«119266_j67216238182417_1_alg».proof.Proof.Gen.Kernel
import proofs.«119266_j67216238182417_1_alg».proof.Proof.Gen.Kernel.Skeleton
import proofs.«119266_j67216238182417_1_alg».proof.Proof.Gen.Kernel.Launch
import proofs.«119266_j67216238182417_1_alg».proof.Proof.Gen.Kernel.Points
import proofs.«119266_j67216238182417_1_alg».proof.Proof.Gen.Kernel.Frame
import proofs.«119266_j67216238182417_1_alg».proof.Proof.Gen.KernelIdeal
import proofs.«119266_j67216238182417_1_alg».proof.Proof.Gen.KernelIdeal.Skeleton
import proofs.«119266_j67216238182417_1_alg».proof.Proof.Gen.KernelIdeal.Launch
import proofs.«119266_j67216238182417_1_alg».proof.Proof.Gen.KernelIdeal.Points
import proofs.«119266_j67216238182417_1_alg».proof.Proof.Gen.KernelIdeal.Frame
import proofs.«119266_j67216238182417_1_alg».proof.Proof.Gen.ReferenceIdeal
import proofs.«119266_j67216238182417_1_alg».proof.Proof.Gen.Pre_finite_inputs
import proofs.«119266_j67216238182417_1_alg».proof.Proof.Gen.ReferenceIdeal.Run
import proofs.«119266_j67216238182417_1_alg».proof.Proof.Gen.ReferenceIdeal.Read
import proofs.«119266_j67216238182417_1_alg».proof.Proof.KRun
import proofs.«119266_j67216238182417_1_alg».proof.Proof.K4
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs run, and the reference's result is the array the kernel
    program's last segment boundary holds at its result buffer. -/
theorem algebraic : Cert.algebraic_KernelIdeal_ReferenceIdeal := by
  intro m ρ m' ρ' _ hagree
  refine ⟨fun c => Cert.KernelIdeal.Gen.W14 m ρ c (Proc.devRef .tc Cert.KernelIdeal.main_v99),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v92_eq, h0, h1, h2, h3, h4, h5, h6]
  exact (Cert.KernelIdeal.K4.out m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
